-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v57) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S1600000x50 : Shape := ⟨2, ![1600000, 50]⟩
abbrev S1600000 : Shape := ⟨1, ![1600000]⟩
abbrev S128x128 : Shape := ⟨2, ![128, 128]⟩
abbrev S50x128 : Shape := ⟨2, ![50, 128]⟩
abbrev S128 : Shape := ⟨1, ![128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S1600000x50 : S_.BroadcastsInDim S1600000x50 (![] : Fin 0 → Fin S1600000x50.rank)
  reducesTo_S1600000x50_S_d0_1 : S1600000x50.ReducesTo [0, 1] S_
  bcast_S_S1600000 : S_.BroadcastsInDim S1600000 (![] : Fin 0 → Fin S1600000.rank)
  reducesTo_S1600000_S_d0 : S1600000.ReducesTo [0] S_
  bcast_S_S128x128 : S_.BroadcastsInDim S128x128 (![] : Fin 0 → Fin S128x128.rank)
  reducesTo_S128x128_S_d0_1 : S128x128.ReducesTo [0, 1] S_
  bcast_S_S50x128 : S_.BroadcastsInDim S50x128 (![] : Fin 0 → Fin S50x128.rank)
  reducesTo_S50x128_S_d0_1 : S50x128.ReducesTo [0, 1] S_
  bcast_S_S128 : S_.BroadcastsInDim S128 (![] : Fin 0 → Fin S128.rank)
  reducesTo_S128_S_d0 : S128.ReducesTo [0] S_

variable [Facts]

def fn_part3 {F : FTy → Type} [FloatOps F] (main_arg3 : IVec S1600000 32) (main_arg13 : FVec F S128 .f32) (main_v48 : IVec S_ 1) (main_v49 : FVec F S128x128 .f32) (main_v50 : FVec F S128x128 .f32) : IVec S_ 1 :=
  let main_v51 : IVec S128x128 1 := cmpf .olt main_v49 main_v50
  let main_c_19 : IVec S_ 1 := constantI S_ 1 1#1
  let main_v52 : IVec S_ 1 := (fun x v => Host.reduce IntOp.andi x v reducesTo_S128x128_S_d0_1 h_S_) main_v51 main_c_19
  let main_v53 : IVec S_ 1 := andi main_v48 main_v52
  let main_v54 : FVec F S128 .f32 := Host.absf main_arg13
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_c_22 : IVec S_ 32 := constantI S_ 32 0#32
  let main_v59 : IVec S1600000 32 := broadcastInDim S1600000 ![] bcast_S_S1600000 main_c_22
  let main_v60 : IVec S1600000 1 := cmpi .sge main_arg3 main_v59
  let main_c_23 : IVec S_ 1 := constantI S_ 1 1#1
  let main_v61 : IVec S_ 1 := (fun x v => Host.reduce IntOp.andi x v reducesTo_S1600000_S_d0 h_S_) main_v60 main_c_23
  let main_v62 : IVec S_ 1 := andi main_v58 main_v61
  let main_c_24 : IVec S_ 32 := constantI S_ 32 50000#32
  let main_v63 : IVec S1600000 32 := broadcastInDim S1600000 ![] bcast_S_S1600000 main_c_24
  let main_v64 : IVec S1600000 1 := cmpi .slt main_arg3 main_v63
  let main_c_25 : IVec S_ 1 := constantI S_ 1 1#1
  let main_v65 : IVec S_ 1 := (fun x v => Host.reduce IntOp.andi x v reducesTo_S1600000_S_d0 h_S_) main_v64 main_c_25
  let main_v66 : IVec S_ 1 := andi main_v62 main_v65
  main_v66

def fn_part2 {F : FTy → Type} [FloatOps F] (main_arg3 : IVec S1600000 32) (main_arg9 : FVec F S128 .f32) (main_arg10 : FVec F S128x128 .f32) (main_arg11 : FVec F S128 .f32) (main_arg12 : FVec F S128x128 .f32) (main_arg13 : FVec F S128 .f32) (main_v33 : IVec S_ 1) : IVec S_ 1 :=
  let main_v34 : FVec F S128 .f32 := Host.absf main_arg9
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128x128 .f32 := Host.absf main_arg10
  let main_cst_14 : FVec F S_ .f32 := constant S_ .f32 0x7F800000#32
  let main_v40 : FVec F S128x128 .f32 := broadcastInDim S128x128 ![] bcast_S_S128x128 main_cst_14
  let main_v41 : IVec S128x128 1 := cmpf .olt main_v39 main_v40
  let main_c_15 : IVec S_ 1 := constantI S_ 1 1#1
  let main_v42 : IVec S_ 1 := (fun x v => Host.reduce IntOp.andi x v reducesTo_S128x128_S_d0_1 h_S_) main_v41 main_c_15
  let main_v43 : IVec S_ 1 := andi main_v38 main_v42
  let main_v44 : FVec F S128 .f32 := Host.absf main_arg11
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128x128 .f32 := Host.absf main_arg12
  let main_cst_18 : FVec F S_ .f32 := constant S_ .f32 0x7F800000#32
  let main_v50 : FVec F S128x128 .f32 := broadcastInDim S128x128 ![] bcast_S_S128x128 main_cst_18
  fn_part3 (F := F) main_arg3 main_arg13 main_v48 main_v49 main_v50

def fn_part1 {F : FTy → Type} [FloatOps F] (main_arg3 : IVec S1600000 32) (main_arg6 : FVec F S50x128 .f32) (main_arg7 : FVec F S128 .f32) (main_arg8 : FVec F S128x128 .f32) (main_arg9 : FVec F S128 .f32) (main_arg10 : FVec F S128x128 .f32) (main_arg11 : FVec F S128 .f32) (main_arg12 : FVec F S128x128 .f32) (main_arg13 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S50x128 .f32 := Host.absf main_arg6
  let main_cst_6 : FVec F S_ .f32 := constant S_ .f32 0x7F800000#32
  let main_v20 : FVec F S50x128 .f32 := broadcastInDim S50x128 ![] bcast_S_S50x128 main_cst_6
  let main_v21 : IVec S50x128 1 := cmpf .olt main_v19 main_v20
  let main_c_7 : IVec S_ 1 := constantI S_ 1 1#1
  let main_v22 : IVec S_ 1 := (fun x v => Host.reduce IntOp.andi x v reducesTo_S50x128_S_d0_1 h_S_) main_v21 main_c_7
  let main_v23 : IVec S_ 1 := andi main_v18 main_v22
  let main_v24 : FVec F S128 .f32 := Host.absf main_arg7
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg8
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg3 main_arg9 main_arg10 main_arg11 main_arg12 main_arg13 main_v33

def fn {F : FTy → Type} [FloatOps F] (main_arg0 : FVec F S50000x128 .f32) (main_arg1 : FVec F S1600000x50 .f32) (main_arg2 : FVec F S1600000 .f32) (main_arg3 : IVec S1600000 32) (main_arg4 : IVec S1600000 32) (main_arg5 : FVec F S128x128 .f32) (main_arg6 : FVec F S50x128 .f32) (main_arg7 : FVec F S128 .f32) (main_arg8 : FVec F S128x128 .f32) (main_arg9 : FVec F S128 .f32) (main_arg10 : FVec F S128x128 .f32) (main_arg11 : FVec F S128 .f32) (main_arg12 : FVec F S128x128 .f32) (main_arg13 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S1600000x50 .f32 := Host.absf main_arg1
  let main_cst_0 : FVec F S_ .f32 := constant S_ .f32 0x7F800000#32
  let main_v5 : FVec F S1600000x50 .f32 := broadcastInDim S1600000x50 ![] bcast_S_S1600000x50 main_cst_0
  let main_v6 : IVec S1600000x50 1 := cmpf .olt main_v4 main_v5
  let main_c_1 : IVec S_ 1 := constantI S_ 1 1#1
  let main_v7 : IVec S_ 1 := (fun x v => Host.reduce IntOp.andi x v reducesTo_S1600000x50_S_d0_1 h_S_) main_v6 main_c_1
  let main_v8 : IVec S_ 1 := andi main_v3 main_v7
  let main_v9 : FVec F S1600000 .f32 := Host.absf main_arg2
  let main_cst_2 : FVec F S_ .f32 := constant S_ .f32 0x7F800000#32
  let main_v10 : FVec F S1600000 .f32 := broadcastInDim S1600000 ![] bcast_S_S1600000 main_cst_2
  let main_v11 : IVec S1600000 1 := cmpf .olt main_v9 main_v10
  let main_c_3 : IVec S_ 1 := constantI S_ 1 1#1
  let main_v12 : IVec S_ 1 := (fun x v => Host.reduce IntOp.andi x v reducesTo_S1600000_S_d0 h_S_) main_v11 main_c_3
  let main_v13 : IVec S_ 1 := andi main_v8 main_v12
  let main_v14 : FVec F S128x128 .f32 := Host.absf main_arg5
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg3 main_arg6 main_arg7 main_arg8 main_arg9 main_arg10 main_arg11 main_arg12 main_arg13 main_v13 main_v16
-- ==== Kernel.lean ====
abbrev S50000x128 : Shape := ⟨2, ![50000, 128]⟩
abbrev S1600000x50 : Shape := ⟨2, ![1600000, 50]⟩
abbrev S1600000 : Shape := ⟨1, ![1600000]⟩
abbrev S128x128 : Shape := ⟨2, ![128, 128]⟩
abbrev S50x128 : Shape := ⟨2, ![50, 128]⟩
abbrev S128 : Shape := ⟨1, ![128]⟩
abbrev S5000x128 : Shape := ⟨2, ![5000, 128]⟩
abbrev S_ : Shape := ⟨0, ![]⟩
abbrev S1600000x1 : Shape := ⟨2, ![1600000, 1]⟩
abbrev S1 : Shape := ⟨1, ![1]⟩
abbrev S1x1 : Shape := ⟨2, ![1, 1]⟩
abbrev S1600000x128 : Shape := ⟨2, ![1600000, 128]⟩
abbrev S1x128 : Shape := ⟨2, ![1, 128]⟩
abbrev S6400x50 : Shape := ⟨2, ![6400, 50]⟩
abbrev S6400x1 : Shape := ⟨2, ![6400, 1]⟩
abbrev S6400x128 : Shape := ⟨2, ![6400, 128]⟩

abbrev nBuf : Space → Nat
  | .hbm => 49
  | .vmem => 25
  | .smem => 0
  | _ => 0

abbrev bufTy : (tb : Table) → Fin (tcTables nBuf tb) → BufTy
  | .hbm, ⟨0, _⟩ => ⟨S50000x128, .f32⟩
  | .hbm, ⟨1, _⟩ => ⟨S1600000x50, .f32⟩
  | .hbm, ⟨2, _⟩ => ⟨S1600000, .f32⟩
  | .hbm, ⟨3, _⟩ => ⟨S1600000, .i32⟩
  | .hbm, ⟨4, _⟩ => ⟨S1600000, .i32⟩
  | .hbm, ⟨5, _⟩ => ⟨S128x128, .f32⟩
  | .hbm, ⟨6, _⟩ => ⟨S50x128, .f32⟩
  | .hbm, ⟨7, _⟩ => ⟨S128, .f32⟩
  | .hbm, ⟨8, _⟩ => ⟨S128x128, .f32⟩
  | .hbm, ⟨9, _⟩ => ⟨S128, .f32⟩
  | .hbm, ⟨10, _⟩ => ⟨S128x128, .f32⟩
  | .hbm, ⟨11, _⟩ => ⟨S128, .f32⟩
  | .hbm, ⟨12, _⟩ => ⟨S128x128, .f32⟩
  | .hbm, ⟨13, _⟩ => ⟨S128, .f32⟩
  | .hbm, ⟨14, _⟩ => ⟨S50000x128, .f32⟩
  | .hbm, ⟨15, _⟩ => ⟨S_, .i32⟩
  | .hbm, ⟨16, _⟩ => ⟨S1600000, .i32⟩
  | .hbm, ⟨17, _⟩ => ⟨S1600000, .i1⟩
  | .hbm, ⟨18, _⟩ => ⟨S_, .i32⟩
  | .hbm, ⟨19, _⟩ => ⟨S1600000, .i32⟩
  | .hbm, ⟨20, _⟩ => ⟨S1600000, .i32⟩
  | .hbm, ⟨21, _⟩ => ⟨S1600000, .i32⟩
  | .hbm, ⟨22, _⟩ => ⟨S1600000x1, .i32⟩
  | .hbm, ⟨23, _⟩ => ⟨S1, .i32⟩
  | .hbm, ⟨24, _⟩ => ⟨S_, .i32⟩
  | .hbm, ⟨25, _⟩ => ⟨S1600000x1, .i32⟩
  | .hbm, ⟨26, _⟩ => ⟨S1600000x1, .i1⟩
  | .hbm, ⟨27, _⟩ => ⟨S1x1, .i32⟩
  | .hbm, ⟨28, _⟩ => ⟨S1600000x1, .i32⟩
  | .hbm, ⟨29, _⟩ => ⟨S1600000x1, .i1⟩
  | .hbm, ⟨30, _⟩ => ⟨S1600000x1, .i1⟩
  | .hbm, ⟨31, _⟩ => ⟨S_, .i1⟩
  | .hbm, ⟨32, _⟩ => ⟨S1600000, .i1⟩
  | .hbm, ⟨33, _⟩ => ⟨S1600000x128, .f32⟩
  | .hbm, ⟨34, _⟩ => ⟨S1600000x128, .i1⟩
  | .hbm, ⟨35, _⟩ => ⟨S_, .f32⟩
  | .hbm, ⟨36, _⟩ => ⟨S1600000x128, .f32⟩
  | .hbm, ⟨37, _⟩ => ⟨S1600000x128, .f32⟩
  | .hbm, ⟨38, _⟩ => ⟨S1600000x1, .f32⟩
  | .hbm, ⟨39, _⟩ => ⟨S1x128, .f32⟩
  | .hbm, ⟨40, _⟩ => ⟨S1x128, .f32⟩
  | .hbm, ⟨41, _⟩ => ⟨S1600000x128, .f32⟩
  | .hbm, ⟨42, _⟩ => ⟨S_, .f32⟩
  | .hbm, ⟨43, _⟩ => ⟨S50000x128, .f32⟩
  | .hbm, ⟨44, _⟩ => ⟨S1600000x1, .i32⟩
  | .hbm, ⟨45, _⟩ => ⟨S50000x128, .f32⟩
  | .hbm, ⟨46, _⟩ => ⟨S1x128, .f32⟩
  | .hbm, ⟨47, _⟩ => ⟨S1x128, .f32⟩
  | .hbm, ⟨48, _⟩ => ⟨S50000x128, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x128, .f32⟩
  | .local _ .vmem, ⟨4, _⟩ => ⟨S5000x128, .f32⟩
  | .local _ .vmem, ⟨5, _⟩ => ⟨S6400x50, .f32⟩
  | .local _ .vmem, ⟨6, _⟩ => ⟨S6400x50, .f32⟩
  | .local _ .vmem, ⟨7, _⟩ => ⟨S6400x1, .f32⟩
  | .local _ .vmem, ⟨8, _⟩ => ⟨S6400x1, .f32⟩
  | .local _ .vmem, ⟨9, _⟩ => ⟨S6400x128, .f32⟩
  | .local _ .vmem, ⟨10, _⟩ => ⟨S6400x128, .f32⟩
  | .local _ .vmem, ⟨11, _⟩ => ⟨S50x128, .f32⟩
  | .local _ .vmem, ⟨12, _⟩ => ⟨S1x128, .f32⟩
  | .local _ .vmem, ⟨13, _⟩ => ⟨S128x128, .f32⟩
  | .local _ .vmem, ⟨14, _⟩ => ⟨S1x128, .f32⟩
  | .local _ .vmem, ⟨15, _⟩ => ⟨S6400x128, .f32⟩
  | .local _ .vmem, ⟨16, _⟩ => ⟨S6400x128, .f32⟩
  | .local _ .vmem, ⟨17, _⟩ => ⟨S5000x128, .f32⟩
  | .local _ .vmem, ⟨18, _⟩ => ⟨S5000x128, .f32⟩
  | .local _ .vmem, ⟨19, _⟩ => ⟨S128x128, .f32⟩
  | .local _ .vmem, ⟨20, _⟩ => ⟨S1x128, .f32⟩
  | .local _ .vmem, ⟨21, _⟩ => ⟨S128x128, .f32⟩
  | .local _ .vmem, ⟨22, _⟩ => ⟨S1x128, .f32⟩
  | .local _ .vmem, ⟨23, _⟩ => ⟨S5000x128, .f32⟩
  | .local _ .vmem, ⟨24, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_call0_c : Ref sig .tc := ⟨.hbm, 15, rfl⟩
abbrev main_call0_v0 : Ref sig .tc := ⟨.hbm, 16, rfl⟩
abbrev main_call0_v1 : Ref sig .tc := ⟨.hbm, 17, rfl⟩
abbrev main_call0_c_0 : Ref sig .tc := ⟨.hbm, 18, rfl⟩
abbrev main_call0_v2 : Ref sig .tc := ⟨.hbm, 19, rfl⟩
abbrev main_call0_v3 : Ref sig .tc := ⟨.hbm, 20, rfl⟩
abbrev main_call0_v4 : Ref sig .tc := ⟨.hbm, 21, rfl⟩
abbrev main_call0_v5 : Ref sig .tc := ⟨.hbm, 22, rfl⟩
abbrev main_call0_c_1 : Ref sig .tc := ⟨.hbm, 23, rfl⟩
abbrev main_call0_c_2 : Ref sig .tc := ⟨.hbm, 24, rfl⟩
abbrev main_call0_v6 : Ref sig .tc := ⟨.hbm, 25, rfl⟩
abbrev main_call0_v7 : Ref sig .tc := ⟨.hbm, 26, rfl⟩
abbrev main_call0_v8 : Ref sig .tc := ⟨.hbm, 27, rfl⟩
abbrev main_call0_v9 : Ref sig .tc := ⟨.hbm, 28, rfl⟩
abbrev main_call0_v10 : Ref sig .tc := ⟨.hbm, 29, rfl⟩
abbrev main_call0_v11 : Ref sig .tc := ⟨.hbm, 30, rfl⟩
abbrev main_call0_c_3 : Ref sig .tc := ⟨.hbm, 31, rfl⟩
abbrev main_call0_v12 : Ref sig .tc := ⟨.hbm, 32, rfl⟩
abbrev main_call0_v13 : Ref sig .tc := ⟨.hbm, 33, rfl⟩
abbrev main_call0_v14 : Ref sig .tc := ⟨.hbm, 34, rfl⟩
abbrev main_call0_cst : Ref sig .tc := ⟨.hbm, 35, rfl⟩
abbrev main_call0_v15 : Ref sig .tc := ⟨.hbm, 36, rfl⟩
abbrev main_v1 : Ref sig .tc := ⟨.hbm, 37, rfl⟩
abbrev main_v2 : Ref sig .tc := ⟨.hbm, 38, rfl⟩
abbrev main_v3 : Ref sig .tc := ⟨.hbm, 39, rfl⟩
abbrev main_v4 : Ref sig .tc := ⟨.hbm, 40, rfl⟩
abbrev main_v5 : Ref sig .tc := ⟨.hbm, 41, rfl⟩
abbrev main_cst : Ref sig .tc := ⟨.hbm, 42, rfl⟩
abbrev main_v6 : Ref sig .tc := ⟨.hbm, 43, rfl⟩
abbrev main_v7 : Ref sig .tc := ⟨.hbm, 44, rfl⟩
abbrev main_v8 : Ref sig .tc := ⟨.hbm, 45, rfl⟩
abbrev main_v9 : Ref sig .tc := ⟨.hbm, 46, rfl⟩
abbrev main_v10 : Ref sig .tc := ⟨.hbm, 47, rfl⟩
abbrev main_v11 : Ref sig .tc := ⟨.hbm, 48, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg5_0 : Ref sig .tc := ⟨.vmem, 13, rfl⟩
abbrev cc1_stg6_0 : Ref sig .tc := ⟨.vmem, 14, rfl⟩
abbrev cc1_stg7_0 : Ref sig .tc := ⟨.vmem, 15, rfl⟩
abbrev cc1_stg7_1 : Ref sig .tc := ⟨.vmem, 16, rfl⟩
abbrev cc2_stg0_0 : Ref sig .tc := ⟨.vmem, 17, rfl⟩
abbrev cc2_stg0_1 : Ref sig .tc := ⟨.vmem, 18, rfl⟩
abbrev cc2_stg1_0 : Ref sig .tc := ⟨.vmem, 19, rfl⟩
abbrev cc2_stg2_0 : Ref sig .tc := ⟨.vmem, 20, rfl⟩
abbrev cc2_stg3_0 : Ref sig .tc := ⟨.vmem, 21, rfl⟩
abbrev cc2_stg4_0 : Ref sig .tc := ⟨.vmem, 22, rfl⟩
abbrev cc2_stg5_0 : Ref sig .tc := ⟨.vmem, 23, rfl⟩
abbrev cc2_stg5_1 : Ref sig .tc := ⟨.vmem, 24, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem4_0 : DmaSem sig := 12
abbrev cc1_sem5_0 : DmaSem sig := 13
abbrev cc1_sem6_0 : DmaSem sig := 14
abbrev cc1_sem7_0 : DmaSem sig := 15
abbrev cc1_sem7_1 : DmaSem sig := 16
abbrev cc2_sem0_0 : DmaSem sig := 17
abbrev cc2_sem0_1 : DmaSem sig := 18
abbrev cc2_sem1_0 : DmaSem sig := 19
abbrev cc2_sem2_0 : DmaSem sig := 20
abbrev cc2_sem3_0 : DmaSem sig := 21
abbrev cc2_sem4_0 : DmaSem sig := 22
abbrev cc2_sem5_0 : DmaSem sig := 23
abbrev cc2_sem5_1 : DmaSem sig := 24

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![250], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S6400x50 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S6400x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S6400x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S50x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S6400x128 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S128x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S5000x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

class Facts₀ : Prop where
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S1600000x1 : S_.BroadcastsInDim S1600000x1 (![] : Fin 0 → Fin S1600000x1.rank)
  bcast_S1_S1x1_1 : S1.BroadcastsInDim S1x1 (![1] : Fin 1 → Fin S1x1.rank)
  bcast_S1x1_S1600000x1_0_1 : S1x1.BroadcastsInDim S1600000x1 (![0, 1] : Fin 2 → Fin S1600000x1.rank)
  reducesTo_S1600000x1_S1600000_d1 : S1600000x1.ReducesTo [1] S1600000
  h_S_ : 0 < S_.numel
  bcast_S1600000_S1600000x128_0 : S1600000.BroadcastsInDim S1600000x128 (![0] : Fin 1 → Fin S1600000x128.rank)
  bcast_S_S1600000x128 : S_.BroadcastsInDim S1600000x128 (![] : Fin 0 → Fin S1600000x128.rank)
  shapeCasts_S128_S1x128 : S128.ShapeCasts S1x128
  inb_S6400x50_S6400x50_0_0 : ∀ a, (![0, 0] : Fin 2 → Nat) a + S6400x50.size a ≤ S6400x50.size a
  h_S6400x50 : 0 < S6400x50.numel
  inb_S50x128_S50x128_0_0 : ∀ a, (![0, 0] : Fin 2 → Nat) a + S50x128.size a ≤ S50x128.size a
  h_S50x128 : 0 < S50x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S6400x128 : S1x128.Broadcasts S6400x128
  inb_S6400x1_S6400x1_0_0 : ∀ a, (![0, 0] : Fin 2 → Nat) a + S6400x1.size a ≤ S6400x1.size a
  h_S6400x1 : 0 < S6400x1.numel
  shapeCasts_S6400x1_S6400x1 : S6400x1.ShapeCasts S6400x1
  natLt_1_32 : 1 < 32
  broadcasts_S6400x1_S6400x128 : S6400x1.Broadcasts S6400x128
  inb_S6400x128_S6400x128_0_0 : ∀ a, (![0, 0] : Fin 2 → Nat) a + S6400x128.size a ≤ S6400x128.size a
  h_S6400x128 : 0 < S6400x128.numel
  shapeCasts_S6400x128_S6400x128 : S6400x128.ShapeCasts S6400x128
  bcast_S_S50000x128 : S_.BroadcastsInDim S50000x128 (![] : Fin 0 → Fin S50000x128.rank)
  shapeCasts_S5000x128_S5000x128 : S5000x128.ShapeCasts S5000x128
  broadcasts_S1x128_S5000x128 : S1x128.Broadcasts S5000x128
  dot_S5000x128_S128x128_S5000x128_1_0_0_1_n_n_wf : DotDims.WF S5000x128 S128x128 S5000x128 [1] [0] [0] [1] [] []
  gather_S50000x128_S1600000x1_S1600000x128_1_0_n_n_0_1_1128_wf : GatherDims.WF S50000x128 S1600000x1 S1600000x128 [1] [0] [] [0] [] 1 ![1, 128]
  dot_S6400x50_S50x128_S6400x128_1_0_0_1_n_n_wf : DotDims.WF S6400x50 S50x128 S6400x128 [1] [0] [0] [1] [] []
  dot_S6400x128_S128x128_S6400x128_1_0_0_1_n_n_wf : DotDims.WF S6400x128 S128x128 S6400x128 [1] [0] [0] [1] [] []
  scatter_S50000x128_S1600000x1_S1600000x128_1_0_0_1_wf : ScatterDims.WF S50000x128 S1600000x1 S1600000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S50000x128.size a
  hwx0_2 : ∀ i : grid0.Coords, EltTy.bits .f32 = 32 ∨ (Rect.block (s := S50000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S6400x50.size a ≤ S1600000x50.size a
  hwx1_0 : ∀ i : grid1.Coords, EltTy.bits .f32 = 32 ∨ (Rect.block (s := S1600000x50) S6400x50.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S6400x1.size a ≤ S1600000x1.size a
  hwx1_1 : ∀ i : grid1.Coords, EltTy.bits .f32 = 32 ∨ (Rect.block (s := S1600000x1) S6400x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S6400x128.size a ≤ S1600000x128.size a
  hwx1_2 : ∀ i : grid1.Coords, EltTy.bits .f32 = 32 ∨ (Rect.block (s := S1600000x128) S6400x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S50x128.size a ≤ S50x128.size a
  hwx1_3 : ∀ i : grid1.Coords, EltTy.bits .f32 = 32 ∨ (Rect.block (s := S50x128) S50x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128x128.size a ≤ S128x128.size a
  hwx1_5 : ∀ i : grid1.Coords, EltTy.bits .f32 = 32 ∨ (Rect.block (s := S128x128) S128x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x128.size a ≤ S1x128.size a
  hwx1_6 : ∀ i : grid1.Coords, EltTy.bits .f32 = 32 ∨ (Rect.block (s := S1x128) S1x128.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S6400x128.size a ≤ S1600000x128.size a
  hwx1_7 : ∀ i : grid1.Coords, EltTy.bits .f32 = 32 ∨ (Rect.block (s := S1600000x128) S6400x128.size (cc1_transform_7 i) (hinb1_7 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x128.size a ≤ S128x128.size a
  hwx2_3 : ∀ i : grid2.Coords, EltTy.bits .f32 = 32 ∨ (Rect.block (s := S128x128) S128x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S5000x128.size a ≤ S50000x128.size a
  hwx2_5 : ∀ i : grid2.Coords, EltTy.bits .f32 = 32 ∨ (Rect.block (s := S50000x128) S5000x128.size (cc2_transform_5 i) (hinb2_5 i)).WholeWords (EltTy.packing .f32)

variable [Facts₀]

def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S50000x128_S1600000x1_S1600000x128_1_0_n_n_0_1_1128 : GatherDims S50000x128 S1600000x1 S1600000x128 where
  offsetDims := [1]
  collapsedSliceDims := [0]
  operandBatchingDims := []
  startIndicesBatchingDims := []
  startIndexMap := [0]
  indexVectorDim := 1
  sliceSizes := ![1, 128]
  wf := gather_S50000x128_S1600000x1_S1600000x128_1_0_n_n_0_1_1128_wf
def dot_S6400x50_S50x128_S6400x128_1_0_0_1_n_n : DotDims S6400x50 S50x128 S6400x128 where
  lhsContracting := [1]
  rhsContracting := [0]
  lhsNonContracting := [0]
  rhsNonContracting := [1]
  lhsBatch := []
  rhsBatch := []
  wf := dot_S6400x50_S50x128_S6400x128_1_0_0_1_n_n_wf
def dot_S6400x128_S128x128_S6400x128_1_0_0_1_n_n : DotDims S6400x128 S128x128 S6400x128 where
  lhsContracting := [1]
  rhsContracting := [0]
  lhsNonContracting := [0]
  rhsNonContracting := [1]
  lhsBatch := []
  rhsBatch := []
  wf := dot_S6400x128_S128x128_S6400x128_1_0_0_1_n_n_wf
def scatter_S50000x128_S1600000x1_S1600000x128_1_0_0_1 : ScatterDims S50000x128 S1600000x1 S1600000x128 where
  updateWindowDims := [1]
  insertedWindowDims := [0]
  scatterDimsToOperandDims := [0]
  indexVectorDim := 1
  wf := scatter_S50000x128_S1600000x1_S1600000x128_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg5) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg1) S6400x50.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v2) S6400x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v1) S6400x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg6) S50x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v3) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg8) S128x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v4) S1x128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v5) S6400x128.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

abbrev win2_0 : Pipeline.Window sig grid2 :=
  Pipeline.Window.ofSpec (Memref.whole main_v8) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg10) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v9) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg12) S128x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v10) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v11) S5000x128.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

class Facts : Prop extends Facts₀ where

variable [Facts]
-- ==== ReferenceIdeal.lean ====
abbrev S50000x128 : Shape := ⟨2, ![50000, 128]⟩
abbrev S1600000x50 : Shape := ⟨2, ![1600000, 50]⟩
abbrev S1600000 : Shape := ⟨1, ![1600000]⟩
abbrev S128x128 : Shape := ⟨2, ![128, 128]⟩
abbrev S50x128 : Shape := ⟨2, ![50, 128]⟩
abbrev S128 : Shape := ⟨1, ![128]⟩
abbrev S_ : Shape := ⟨0, ![]⟩
abbrev S1600000x128 : Shape := ⟨2, ![1600000, 128]⟩
abbrev S1x128 : Shape := ⟨2, ![1, 128]⟩
abbrev S1600000x1 : Shape := ⟨2, ![1600000, 1]⟩

abbrev nBuf : Space → Nat
  | .hbm => 84
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S1600000x50, .f32⟩
  | .hbm, ⟨2, _⟩ => ⟨S1600000, .f32⟩
  | .hbm, ⟨3, _⟩ => ⟨S1600000, .i32⟩
  | .hbm, ⟨4, _⟩ => ⟨S1600000, .i32⟩
  | .hbm, ⟨5, _⟩ => ⟨S128x128, .f32⟩
  | .hbm, ⟨6, _⟩ => ⟨S50x128, .f32⟩
  | .hbm, ⟨7, _⟩ => ⟨S128, .f32⟩
  | .hbm, ⟨8, _⟩ => ⟨S128x128, .f32⟩
  | .hbm, ⟨9, _⟩ => ⟨S128, .f32⟩
  | .hbm, ⟨10, _⟩ => ⟨S128x128, .f32⟩
  | .hbm, ⟨11, _⟩ => ⟨S128, .f32⟩
  | .hbm, ⟨12, _⟩ => ⟨S128x128, .f32⟩
  | .hbm, ⟨13, _⟩ => ⟨S128, .f32⟩
  | .hbm, ⟨14, _⟩ => ⟨S_, .f32⟩
  | .hbm, ⟨15, _⟩ => ⟨S1600000, .f32⟩
  | .hbm, ⟨16, _⟩ => ⟨S1600000, .f32⟩
  | .hbm, ⟨17, _⟩ => ⟨S_, .f32⟩
  | .hbm, ⟨18, _⟩ => ⟨S1600000, .f32⟩
  | .hbm, ⟨19, _⟩ => ⟨S1600000, .f32⟩
  | .hbm, ⟨20, _⟩ => ⟨S1600000, .f32⟩
  | .hbm, ⟨21, _⟩ => ⟨S_, .f32⟩
  | .hbm, ⟨22, _⟩ => ⟨S1600000, .f32⟩
  | .hbm, ⟨23, _⟩ => ⟨S1600000, .f32⟩
  | .hbm, ⟨24, _⟩ => ⟨S_, .f32⟩
  | .hbm, ⟨25, _⟩ => ⟨S1600000, .f32⟩
  | .hbm, ⟨26, _⟩ => ⟨S1600000, .f32⟩
  | .hbm, ⟨27, _⟩ => ⟨S_, .f32⟩
  | .hbm, ⟨28, _⟩ => ⟨S1600000, .f32⟩
  | .hbm, ⟨29, _⟩ => ⟨S1600000, .i1⟩
  | .hbm, ⟨30, _⟩ => ⟨S1600000, .f32⟩
  | .hbm, ⟨31, _⟩ => ⟨S1600000, .f32⟩
  | .hbm, ⟨32, _⟩ => ⟨S1600000x128, .f32⟩
  | .hbm, ⟨33, _⟩ => ⟨S1x128, .f32⟩
  | .hbm, ⟨34, _⟩ => ⟨S1600000x128, .f32⟩
  | .hbm, ⟨35, _⟩ => ⟨S1600000x128, .f32⟩
  | .hbm, ⟨36, _⟩ => ⟨S1600000x128, .f32⟩
  | .hbm, ⟨37, _⟩ => ⟨S1600000x128, .f32⟩
  | .hbm, ⟨38, _⟩ => ⟨S_, .f32⟩
  | .hbm, ⟨39, _⟩ => ⟨S1600000x128, .f32⟩
  | .hbm, ⟨40, _⟩ => ⟨S1600000x128, .f32⟩
  | .hbm, ⟨41, _⟩ => ⟨S_, .f32⟩
  | .hbm, ⟨42, _⟩ => ⟨S1600000x128, .f32⟩
  | .hbm, ⟨43, _⟩ => ⟨S1600000x128, .f32⟩
  | .hbm, ⟨44, _⟩ => ⟨S1600000x128, .f32⟩
  | .hbm, ⟨45, _⟩ => ⟨S1600000x128, .f32⟩
  | .hbm, ⟨46, _⟩ => ⟨S1x128, .f32⟩
  | .hbm, ⟨47, _⟩ => ⟨S1600000x128, .f32⟩
  | .hbm, ⟨48, _⟩ => ⟨S1600000x128, .f32⟩
  | .hbm, ⟨49, _⟩ => ⟨S1600000x1, .f32⟩
  | .hbm, ⟨50, _⟩ => ⟨S1600000x128, .f32⟩
  | .hbm, ⟨51, _⟩ => ⟨S1600000x128, .f32⟩
  | .hbm, ⟨52, _⟩ => ⟨S50000x128, .f32⟩
  | .hbm, ⟨53, _⟩ => ⟨S_, .i32⟩
  | .hbm, ⟨54, _⟩ => ⟨S1600000, .i32⟩
  | .hbm, ⟨55, _⟩ => ⟨S1600000, .i1⟩
  | .hbm, ⟨56, _⟩ => ⟨S_, .i32⟩
  | .hbm, ⟨57, _⟩ => ⟨S1600000, .i32⟩
  | .hbm, ⟨58, _⟩ => ⟨S1600000, .i32⟩
  | .hbm, ⟨59, _⟩ => ⟨S1600000, .i32⟩
  | .hbm, ⟨60, _⟩ => ⟨S1600000x1, .i32⟩
  | .hbm, ⟨61, _⟩ => ⟨S1600000x128, .f32⟩
  | .hbm, ⟨62, _⟩ => ⟨S1600000x128, .f32⟩
  | .hbm, ⟨63, _⟩ => ⟨S_, .f32⟩
  | .hbm, ⟨64, _⟩ => ⟨S50000x128, .f32⟩
  | .hbm, ⟨65, _⟩ => ⟨S1600000x1, .i32⟩
  | .hbm, ⟨66, _⟩ => ⟨S50000x128, .f32⟩
  | .hbm, ⟨67, _⟩ => ⟨S50000x128, .f32⟩
  | .hbm, ⟨68, _⟩ => ⟨S1x128, .f32⟩
  | .hbm, ⟨69, _⟩ => ⟨S50000x128, .f32⟩
  | .hbm, ⟨70, _⟩ => ⟨S50000x128, .f32⟩
  | .hbm, ⟨71, _⟩ => ⟨S50000x128, .f32⟩
  | .hbm, ⟨72, _⟩ => ⟨S50000x128, .f32⟩
  | .hbm, ⟨73, _⟩ => ⟨S_, .f32⟩
  | .hbm, ⟨74, _⟩ => ⟨S50000x128, .f32⟩
  | .hbm, ⟨75, _⟩ => ⟨S50000x128, .f32⟩
  | .hbm, ⟨76, _⟩ => ⟨S_, .f32⟩
  | .hbm, ⟨77, _⟩ => ⟨S50000x128, .f32⟩
  | .hbm, ⟨78, _⟩ => ⟨S50000x128, .f32⟩
  | .hbm, ⟨79, _⟩ => ⟨S50000x128, .f32⟩
  | .hbm, ⟨80, _⟩ => ⟨S50000x128, .f32⟩
  | .hbm, ⟨81, _⟩ => ⟨S1x128, .f32⟩
  | .hbm, ⟨82, _⟩ => ⟨S50000x128, .f32⟩
  | .hbm, ⟨83, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_cst : Ref sig .tc := ⟨.hbm, 14, rfl⟩
abbrev main_v0 : Ref sig .tc := ⟨.hbm, 15, rfl⟩
abbrev main_v1 : Ref sig .tc := ⟨.hbm, 16, rfl⟩
abbrev main_cst_0 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_cst_1 : Ref sig .tc := ⟨.hbm, 21, rfl⟩
abbrev main_v5 : Ref sig .tc := ⟨.hbm, 22, rfl⟩
abbrev main_v6 : Ref sig .tc := ⟨.hbm, 23, rfl⟩
abbrev main_cst_2 : Ref sig .tc := ⟨.hbm, 24, rfl⟩
abbrev main_v7 : Ref sig .tc := ⟨.hbm, 25, rfl⟩
abbrev main_v8 : Ref sig .tc := ⟨.hbm, 26, rfl⟩
abbrev main_cst_3 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_cst_4 : Ref sig .tc := ⟨.hbm, 38, rfl⟩
abbrev main_v19 : Ref sig .tc := ⟨.hbm, 39, rfl⟩
abbrev main_v20 : Ref sig .tc := ⟨.hbm, 40, rfl⟩
abbrev main_cst_5 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_c : Ref sig .tc := ⟨.hbm, 53, rfl⟩
abbrev main_v32 : Ref sig .tc := ⟨.hbm, 54, rfl⟩
abbrev main_v33 : Ref sig .tc := ⟨.hbm, 55, rfl⟩
abbrev main_c_6 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_cst_7 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_cst_8 : Ref sig .tc := ⟨.hbm, 73, rfl⟩
abbrev main_v49 : Ref sig .tc := ⟨.hbm, 74, rfl⟩
abbrev main_v50 : Ref sig .tc := ⟨.hbm, 75, rfl⟩
abbrev main_cst_9 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S128_S1x128_1 : S128.BroadcastsInDim S1x128 (![1] : Fin 1 → Fin S1x128.rank)
  bcast_S1x128_S1600000x128_0_1 : S1x128.BroadcastsInDim S1600000x128 (![0, 1] : Fin 2 → Fin S1600000x128.rank)
  bcast_S_S1600000x128 : S_.BroadcastsInDim S1600000x128 (![] : Fin 0 → Fin S1600000x128.rank)
  bcast_S1600000_S1600000x1_0 : S1600000.BroadcastsInDim S1600000x1 (![0] : Fin 1 → Fin S1600000x1.rank)
  bcast_S1600000x1_S1600000x128_0_1 : S1600000x1.BroadcastsInDim S1600000x128 (![0, 1] : Fin 2 → Fin S1600000x128.rank)
  bcast_S_S50000x128 : S_.BroadcastsInDim S50000x128 (![] : Fin 0 → Fin S50000x128.rank)
  bcast_S1x128_S50000x128_0_1 : S1x128.BroadcastsInDim S50000x128 (![0, 1] : Fin 2 → Fin S50000x128.rank)
  dot_S1600000x50_S50x128_S1600000x128_1_0_0_1_n_n_wf : DotDims.WF S1600000x50 S50x128 S1600000x128 [1] [0] [0] [1] [] []
  dot_S1600000x128_S128x128_S1600000x128_1_0_0_1_n_n_wf : DotDims.WF S1600000x128 S128x128 S1600000x128 [1] [0] [0] [1] [] []
  dot_S50000x128_S128x128_S50000x128_1_0_0_1_n_n_wf : DotDims.WF S50000x128 S128x128 S50000x128 [1] [0] [0] [1] [] []
  gather_S50000x128_S1600000x1_S1600000x128_1_0_n_n_0_1_1128_wf : GatherDims.WF S50000x128 S1600000x1 S1600000x128 [1] [0] [] [0] [] 1 ![1, 128]
  scatter_S50000x128_S1600000x1_S1600000x128_1_0_0_1_wf : ScatterDims.WF S50000x128 S1600000x1 S1600000x128 [1] [0] [0] 1

variable [Facts₀]

def dot_S1600000x50_S50x128_S1600000x128_1_0_0_1_n_n : DotDims S1600000x50 S50x128 S1600000x128 where
  lhsContracting := [1]
  rhsContracting := [0]
  lhsNonContracting := [0]
  rhsNonContracting := [1]
  lhsBatch := []
  rhsBatch := []
  wf := dot_S1600000x50_S50x128_S1600000x128_1_0_0_1_n_n_wf
def dot_S1600000x128_S128x128_S1600000x128_1_0_0_1_n_n : DotDims S1600000x128 S128x128 S1600000x128 where
  lhsContracting := [1]
  rhsContracting := [0]
  lhsNonContracting := [0]
  rhsNonContracting := [1]
  lhsBatch := []
  rhsBatch := []
  wf := dot_S1600000x128_S128x128_S1600000x128_1_0_0_1_n_n_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S1600000x1_S1600000x128_1_0_n_n_0_1_1128 : GatherDims S50000x128 S1600000x1 S1600000x128 where
  offsetDims := [1]
  collapsedSliceDims := [0]
  operandBatchingDims := []
  startIndicesBatchingDims := []
  startIndexMap := [0]
  indexVectorDim := 1
  sliceSizes := ![1, 128]
  wf := gather_S50000x128_S1600000x1_S1600000x128_1_0_n_n_0_1_1128_wf
def scatter_S50000x128_S1600000x1_S1600000x128_1_0_0_1 : ScatterDims S50000x128 S1600000x1 S1600000x128 where
  updateWindowDims := [1]
  insertedWindowDims := [0]
  scatterDimsToOperandDims := [0]
  indexVectorDim := 1
  wf := scatter_S50000x128_S1600000x1_S1600000x128_1_0_0_1_wf

class Facts : Prop extends Facts₀ where

variable [Facts]
-- ==== Proof.HostSide.lean ====
/-
  The host operations between the launches, as functions of arrays, and the one fact about them the equality needs:
  the kernel program looks a source row up with a range mask (a fill value where the index names no node), and where
  every source index names a node the mask is all ones, so the lookup is the plain gather of rows.
-/
import proofs.«409941_j9216999817568_1_alg».proof.Proof.Gen.KernelIdeal
import Idealize.ShloMosaic.Lib.Pipeline.Value
import Idealize.ShloMosaic.Lib.ValueIdx
import Idealize.ShloMosaic.Lib.ValueLayout
import Idealize.ShloMosaic.Lib.StableHlo.Predicate
import Idealize.ShloMosaic.PureOps.Reduce

set_option maxRecDepth 16384

noncomputable section

namespace Cert.KernelIdeal.HostSide

open Cert.KernelIdeal Cert.KernelIdeal.Gen Idealize.ShloMosaic Idealize.ShloMosaic.ValueIdx

/-- The source indices as the gather reads them: a negative index counted from the end, then laid out as a column. -/
def wrapIdx (src : IVec S1600000 32) : IVec S1600000x1 32 :=
  broadcastInDim S1600000x1 ![0] bcast_S1600000_S1600000x1_0
    (select (cmpi .slt src (broadcastInDim S1600000 ![] bcast_S_S1600000 (constantI S_ 32 0#32)))
      (addi src (broadcastInDim S1600000 ![] bcast_S_S1600000 (constantI S_ 32 50000#32))) src)

/-- The mask of the kernel's row lookup: 1 where the wrapped index names a node (0 ≤ w ≤ 49999), spread over the row. -/
def inRange (w : IVec S1600000x1 32) : IVec S1600000x128 1 :=
  broadcastInDim S1600000x128 ![0] bcast_S1600000_S1600000x128_0
    (Host.reduce IntOp.andi
      (andi (cmpi .sge w (broadcastInDim S1600000x1 ![] bcast_S_S1600000x1 (constantI S_ 32 0#32)))
        (cmpi .sle w (broadcastInDim S1600000x1 ![0, 1] bcast_S1x1_S1600000x1_0_1
          (broadcastInDim S1x1 ![1] bcast_S1_S1x1_1 (constantI S1 32 49999#32)))))
      (constantI S_ 1 1#1) reducesTo_S1600000x1_S1600000_d1 h_S_)

/-- The kernel's row lookup: the gathered row where the index names a node, a fill value elsewhere. -/
def takeRows (hv : FVec Ideal S50000x128 .f32) (src : IVec S1600000 32) : FVec Ideal S1600000x128 .f32 :=
  select (inRange (wrapIdx src))
    (Host.gather gather_S50000x128_S1600000x1_S1600000x128_1_0_n_n_0_1_1128 hv (wrapIdx src))
    (broadcastInDim S1600000x128 ![] bcast_S_S1600000x128 (constant S_ .f32 0x7FC00000#32))

/-- The sum of the edge messages at their destination nodes, as the host computes it. -/
def sumAtDst (dst : IVec S1600000 32) (msg : FVec Ideal S1600000x128 .f32) : FVec Ideal S50000x128 .f32 :=
  Host.scatterAdd scatter_S50000x128_S1600000x1_S1600000x128_1_0_0_1
    (broadcastInDim S50000x128 ![] bcast_S_S50000x128 (constant S_ .f32 0x00000000#32))
    (broadcastInDim S1600000x1 ![0] bcast_S1600000_S1600000x1_0 dst) msg

/-! ## Words in the node range -/

/-- A word in [0, 50000), read signed, is not negative and is at most 49999. -/
theorem word_node (w : BitVec 32) (h0 : IntOp.cmpi .sge w 0#32 = 1#1) (h1 : IntOp.cmpi .slt w 50000#32 = 1#1) :
    IntOp.cmpi .slt w 0#32 = 0#1 ∧ IntOp.cmpi .sle w 49999#32 = 1#1 := by
  have e0 : (0#32 : BitVec 32).toInt = 0 := by decide
  have e1 : (50000#32 : BitVec 32).toInt = 50000 := by decide
  have e2 : (49999#32 : BitVec 32).toInt = 49999 := by decide
  simp only [IntOp.cmpi, StableHlo.Predicate.ofBool_eq_one_iff, BitVec.slt, BitVec.sle, decide_eq_true_eq, e0, e1] at h0 h1
  constructor
  · simp only [IntOp.cmpi, BitVec.slt, e0]
    rw [decide_eq_false (by omega)]
    rfl
  · simp only [IntOp.cmpi, StableHlo.Predicate.ofBool_eq_one_iff, BitVec.sle, decide_eq_true_eq, e2]
    omega

/-- The wrapped index of edge `e`: the source index itself when it is not negative. -/
theorem wrapIdx_apply (src : IVec S1600000 32) (e : Fin 1600000) (u : Fin 1)
    (h0 : IntOp.cmpi .slt (src (ix1 e)) 0#32 = 0#1) : wrapIdx src (ix2 e u) = src (ix1 e) := by
  unfold wrapIdx
  refine (broadcastInDim_apply _ _ _ (ix2 e u) (ix1 e) (fun a => ?_)).trans ?_
  · match a with
    | ⟨0, _⟩ =>
      show e.val = if (1600000 : ℕ) = 1 then 0 else e.val
      rw [if_neg (by decide)]
  · show Scalar.select (IntOp.cmpi .slt (src (ix1 e)) 0#32) _ (src (ix1 e)) = _
    rw [h0]
    rfl

/-- A left fold by `and` from 1 over words that are all 1 is 1. -/
theorem foldl_andi_one {ι : Type} (f : ι → BitVec 1) :
    ∀ (l : List ι) (init : BitVec 1), init = 1#1 → (∀ n ∈ l, f n = 1#1) → l.foldl (fun r n => IntOp.andi r (f n)) init = 1#1
  | [], init, hi, _ => hi
  | a :: l, init, hi, h => by
    refine foldl_andi_one f l _ ?_ fun n hn => h n (List.mem_cons_of_mem _ hn)
    show IntOp.andi init (f a) = 1#1
    rw [hi, h a List.mem_cons_self]
    decide

/-- The mask is 1 at every entry of an edge's row when that edge's wrapped index names a node. -/
theorem inRange_one (w : IVec S1600000x1 32) (i : S1600000x128.Idx)
    (h : ∀ u : Fin 1, IntOp.cmpi .sge (w (ix2 (i 0) u)) 0#32 = 1#1 ∧ IntOp.cmpi .sle (w (ix2 (i 0) u)) 49999#32 = 1#1) :
    inRange w i = 1#1 := by
  unfold inRange
  refine (broadcastInDim_apply _ _ _ i (ix1 (i 0)) (fun a => ?_)).trans ?_
  · match a with
    | ⟨0, _⟩ =>
      show (i 0).val = if (1600000 : ℕ) = 1 then 0 else (i 0).val
      rw [if_neg (by decide)]
  · unfold Host.reduce
    refine foldl_andi_one _ _ _ rfl fun n hn => ?_
    have hd := (List.mem_filter.1 hn).2
    simp only [decide_eq_true_eq] at hd
    obtain ⟨p, q, hpq⟩ : ∃ (p : Fin 1600000) (q : Fin 1), S1600000x1.rowMajor.symm n = ix2 p q := ⟨_, _, eq_ix2 _⟩
    rw [hpq] at hd ⊢
    have hp : p = i 0 := by
      apply Fin.ext
      have := congrArg (fun j : S1600000.Idx => (j 0).val) hd
      rw [Shape.ReducesTo.drop_apply_val_of_eq reducesTo_S1600000x1_S1600000_d1 (ix2 p q) 0 0] at this
      exact this
    subst hp
    obtain ⟨ha, hb⟩ := h q
    show IntOp.andi (IntOp.cmpi .sge (w (ix2 (i 0) q)) 0#32) (IntOp.cmpi .sle (w (ix2 (i 0) q)) 49999#32) = 1#1
    rw [ha, hb]
    decide

/-- Where every source index names a node, the masked row lookup is the gather of rows. -/
theorem takeRows_eq (hv : FVec Ideal S50000x128 .f32) (src : IVec S1600000 32)
    (hsrc : ∀ e : S1600000.Idx, IntOp.cmpi .sge (src e) 0#32 = 1#1 ∧ IntOp.cmpi .slt (src e) 50000#32 = 1#1) :
    takeRows hv src = Host.gather gather_S50000x128_S1600000x1_S1600000x128_1_0_n_n_0_1_1128 hv (wrapIdx src) := by
  funext i
  unfold takeRows
  show Scalar.select (inRange (wrapIdx src) i) _ _ = _
  rw [inRange_one (wrapIdx src) i fun u => by
    obtain ⟨h0, h1⟩ := hsrc (ix1 (i 0))
    obtain ⟨hn, hle⟩ := word_node _ h0 h1
    rw [wrapIdx_apply src (i 0) u hn]
    exact ⟨h0, hle⟩]
  rfl

end Cert.KernelIdeal.HostSide

end
-- ==== Proof.LibMatProd.lean ====
import Idealize.ShloMosaic.PureOps.Ideal
import Idealize.ShloMosaic.Lib.ValueIdx
import Mathlib.Data.EReal.Basic
import Mathlib.Algebra.BigOperators.Group.Finset.Basic

/-!
# A matrix product on extended reals, index by index

`mmP A B` is the product of an `M × K` and a `K × N` array of extended reals: entry `(r, s)` is the sum over the
contracted axis of `A (r, j) * B (j, s)`. Every tiled matrix product of the program is this function of its two operand
arrays, whatever the tiling.
-/

open Idealize.ShloMosaic Idealize.ShloMosaic.ValueIdx

namespace MatProd

/-- The `M × K` by `K × N` product on extended reals, as a function of the result's index. -/
noncomputable def mmP {M K N : ℕ} (A : (⟨2, ![M, K]⟩ : Shape).Idx → EReal) (B : (⟨2, ![K, N]⟩ : Shape).Idx → EReal) :
    (⟨2, ![M, N]⟩ : Shape).Idx → EReal :=
  fun idx => ∑ j : Fin K, A (ix2 (idx 0) j) * B (ix2 j (idx 1))

/-- Entry `(r, s)` of the product is the sum of the products along the contracted axis. -/
theorem mmP_apply {M K N : ℕ} (A : (⟨2, ![M, K]⟩ : Shape).Idx → EReal) (B : (⟨2, ![K, N]⟩ : Shape).Idx → EReal)
    (r : Fin M) (s : Fin N) : mmP A B (ix2 r s) = ∑ j : Fin K, A (ix2 r j) * B (ix2 j s) := rfl

end MatProd
-- ==== Proof.LibDotPlain.lean ====
/-
  A plain matrix product read index by index, for any extents: a contraction of an [M × K] by a [K × N] array whose
  dimension numbers contract the left operand's axis 1 with the right operand's axis 0, with no batch axis, is the
  matrix product `MatProd.mmP` — entry (r, s) the sum over j of l (r, j) · r (j, s) — both as the host's
  `dot_general` and as the matrix unit's product into a zero accumulator, at the exact-arithmetic instance.
-/
import Idealize.ShloMosaic.PureOps.Ideal
import Idealize.ShloMosaic.PureOps.Ideal.Laws
import Idealize.ShloMosaic.PureOps.Contract
import Idealize.ShloMosaic.Lib.ValueIdx
import proofs.«409941_j9216999817568_1_alg».proof.Proof.LibMatProd

noncomputable section

namespace Idealize.ShloMosaic.DotPlain

open Idealize.ShloMosaic Idealize.ShloMosaic.ValueIdx MatProd

variable {M K N : Nat} (d : DotDims ⟨2, ![M, K]⟩ ⟨2, ![K, N]⟩ ⟨2, ![M, N]⟩)

/-- The left operand's row is the result's row. -/
theorem lhs_axis0 (hlb : d.lhsBatch = []) (hln : d.lhsNonContracting = [0]) (j : (⟨2, ![M, N]⟩ : Shape).Idx) (k : d.contr.Idx) :
    (d.lhsIdx j k 0).val = (j 0).val := by
  have key : ∀ (p q : Nat) (hp : p < (⟨2, ![M, N]⟩ : Shape).rank) (hq : q < (⟨2, ![M, N]⟩ : Shape).rank), p = q →
      (j ⟨p, hp⟩).val = (j ⟨q, hq⟩).val := fun p q hp hq h => by subst h; rfl
  unfold DotDims.lhsIdx
  rw [dif_neg (by rw [hlb]; exact List.not_mem_nil), dif_pos (by rw [hln]; exact List.mem_singleton.mpr rfl)]
  simp only [Fin.val_cast]
  exact key _ _ _ _ (by simp [hlb, hln])

/-- The right operand's column is the result's column. -/
theorem rhs_axis1 (hlb : d.lhsBatch = []) (hrb : d.rhsBatch = []) (hln : d.lhsNonContracting = [0]) (hrn : d.rhsNonContracting = [1])
    (j : (⟨2, ![M, N]⟩ : Shape).Idx) (k : d.contr.Idx) : (d.rhsIdx j k 1).val = (j 1).val := by
  have key : ∀ (p q : Nat) (hp : p < (⟨2, ![M, N]⟩ : Shape).rank) (hq : q < (⟨2, ![M, N]⟩ : Shape).rank), p = q →
      (j ⟨p, hp⟩).val = (j ⟨q, hq⟩).val := fun p q hp hq h => by subst h; rfl
  unfold DotDims.rhsIdx
  rw [dif_neg (by rw [hrb]; exact List.not_mem_nil), dif_pos (by rw [hrn]; exact List.mem_singleton.mpr rfl)]
  simp only [Fin.val_cast]
  exact key _ _ _ _ (by simp [hlb, hln, hrn])

/-- The contraction's sum, re-indexed by the contracted coordinate: the matrix product's entry. -/
theorem contr_sum (hlc : d.lhsContracting = [1]) (hrc : d.rhsContracting = [0]) (hln : d.lhsNonContracting = [0])
    (hrn : d.rhsNonContracting = [1]) (hlb : d.lhsBatch = []) (hrb : d.rhsBatch = [])
    (X : (⟨2, ![M, K]⟩ : Shape).Idx → EReal) (Y : (⟨2, ![K, N]⟩ : Shape).Idx → EReal) (j : (⟨2, ![M, N]⟩ : Shape).Idx) :
    ∑ k : d.contr.Idx, X (d.lhsIdx j k) * Y (d.rhsIdx j k) = mmP X Y j := by
  have hr : d.contr.rank = 1 := by rw [d.rank_contr, hlc]; rfl
  have hs : d.contr.size ⟨0, by omega⟩ = K := by
    rw [d.size_contr 0 (by rw [hlc]; exact Nat.one_pos)]
    simp [hlc]
  refine (Equiv.sum_comp (contrEquiv1 d K hr hs).symm _).symm.trans ?_
  unfold mmP
  refine Finset.sum_congr rfl fun kk _ => ?_
  have e1 : d.lhsIdx j ((contrEquiv1 d K hr hs).symm kk) = ix2 (j 0) kk := by
    funext a; apply Fin.ext
    match a with
    | ⟨0, _⟩ => exact lhs_axis0 d hlb hln j _
    | ⟨1, _⟩ => exact (d.lhsIdx_val_of_single hlc j _).trans (contrEquiv1_symm_val d K hr hs kk)
  have e2 : d.rhsIdx j ((contrEquiv1 d K hr hs).symm kk) = ix2 kk (j 1) := by
    funext a; apply Fin.ext
    match a with
    | ⟨0, _⟩ => exact (d.rhsIdx_val_of_single hrc j _).trans (contrEquiv1_symm_val d K hr hs kk)
    | ⟨1, _⟩ => exact rhs_axis1 d hlb hrb hln hrn j _
  exact congrArg₂ (· * ·) (congrArg X e1) (congrArg Y e2)

/-- The host's `dot_general` with these dimension numbers is the matrix product. -/
theorem dotGeneral_eq (hlc : d.lhsContracting = [1]) (hrc : d.rhsContracting = [0]) (hln : d.lhsNonContracting = [0])
    (hrn : d.rhsNonContracting = [1]) (hlb : d.lhsBatch = []) (hrb : d.rhsBatch = []) {φ₁ φ₂ : FTy}
    (prec : Option ContractPrecision) (sched : HostSchedule)
    (X : FVec Ideal ⟨2, ![M, K]⟩ φ₁) (Y : FVec Ideal ⟨2, ![K, N]⟩ φ₂) :
    FloatOps.dotGeneral d prec sched X Y = mmP X Y := by
  funext j
  rw [Ideal.dotGeneral_apply]
  exact contr_sum d hlc hrc hln hrn hlb hrb X Y j

/-- The matrix unit's product with these dimension numbers into a zero accumulator is the matrix product. -/
theorem matmul_zero_eq (hlc : d.lhsContracting = [1]) (hrc : d.rhsContracting = [0]) (hln : d.lhsNonContracting = [0])
    (hrn : d.rhsNonContracting = [1]) (hlb : d.lhsBatch = []) (hrb : d.rhsBatch = []) {φ₁ φ₂ : FTy}
    (prec : Option ContractPrecision) (X : FVec Ideal ⟨2, ![M, K]⟩ φ₁) (Y : FVec Ideal ⟨2, ![K, N]⟩ φ₂) :
    FloatOps.matmul d prec X Y (constant ⟨2, ![M, N]⟩ .f32 0x00000000#32) = mmP X Y := by
  funext j
  rw [Ideal.matmul_constant_zero_apply]
  exact contr_sum d hlc hrc hln hrn hlb hrb X Y j

end Idealize.ShloMosaic.DotPlain

end
-- ==== Proof.Spec.lean ====
/-
  The mathematics both programs compute, stated once over arrays of extended reals.

  A continuous-filter convolution layer on a graph: node features are projected by a matrix; on every edge a
  two-layer perceptron of the edge's radial basis expansion, damped by a cosine cutoff of the edge length, multiplies
  the projected feature of the edge's source node; the edge messages are summed at their destination nodes; a second
  two-layer perceptron maps the sums to the output. The matrix products, the perceptrons and the cutoff are stated
  here; the gather of source rows and the sum over incoming edges are one and the same host operation in both
  programs and are carried as they are.
-/
import Idealize.ShloMosaic.PureOps.Ideal
import Idealize.ShloMosaic.Lib.ValueIdx
import proofs.«409941_j9216999817568_1_alg».proof.Proof.LibMatProd

noncomputable section

namespace CFConv

open Idealize.ShloMosaic Idealize.ShloMosaic.ValueIdx MatProd

/-- `x · σ(x)` with `σ` the logistic function. -/
def swish (x : EReal) : EReal := x * Ideal.logistic x

/-- Entry `s` of a row vector times a `K × N` matrix. -/
def rowMat {K N : ℕ} (a : Fin K → EReal) (B : (⟨2, ![K, N]⟩ : Shape).Idx → EReal) (s : Fin N) : EReal :=
  ∑ j : Fin K, a j * B (ix2 j s)

/-- A matrix product's entry is the row of the left factor times the right factor. -/
theorem mmP_eq_rowMat {M K N : ℕ} (A : (⟨2, ![M, K]⟩ : Shape).Idx → EReal) (B : (⟨2, ![K, N]⟩ : Shape).Idx → EReal)
    (i : (⟨2, ![M, N]⟩ : Shape).Idx) : mmP A B i = rowMat (fun j => A (ix2 (i 0) j)) B (i 1) := rfl

/-- Entry `s` of the two-layer perceptron `swish(a · W₁ + b₁) · W₂ + b₂` of one row `a`. -/
def mlpRow {K H N : ℕ} (a : Fin K → EReal) (W1 : (⟨2, ![K, H]⟩ : Shape).Idx → EReal) (b1 : Fin H → EReal)
    (W2 : (⟨2, ![H, N]⟩ : Shape).Idx → EReal) (b2 : Fin N → EReal) (s : Fin N) : EReal :=
  rowMat (fun k => swish (rowMat a W1 k + b1 k)) W2 s + b2 s

/-- The two-layer perceptron applied to every row of an `M × K` array. -/
def mlp2 {M K H N : ℕ} (A : (⟨2, ![M, K]⟩ : Shape).Idx → EReal) (W1 : (⟨2, ![K, H]⟩ : Shape).Idx → EReal) (b1 : Fin H → EReal)
    (W2 : (⟨2, ![H, N]⟩ : Shape).Idx → EReal) (b2 : Fin N → EReal) : (⟨2, ![M, N]⟩ : Shape).Idx → EReal :=
  fun i => mlpRow (fun j => A (ix2 (i 0) j)) W1 b1 W2 b2 (i 1)

/-- The cosine cutoff `½ (cos(π r / 5) + 1) · [r < 5]`, the constants the single-precision words both programs carry. -/
def cutoff (r : EReal) : EReal :=
  Ideal.ofBits .f32 0x3F000000#32
      * (Ideal.cos (Ideal.div (Ideal.ofBits .f32 0x40490FDB#32 * r) (Ideal.ofBits .f32 0x40A00000#32)) + Ideal.ofBits .f32 0x3F800000#32)
    * (((Ideal.cmp .olt r (Ideal.ofBits .f32 0x40A00000#32)).toNat : ℝ) : EReal)

/-- The edge messages: the source node's projected feature times the damped filter, entry by entry. -/
def edgeMsg {E G H N : ℕ} (fij : (⟨2, ![E, G]⟩ : Shape).Idx → EReal) (r : Fin E → EReal) (h : (⟨2, ![E, N]⟩ : Shape).Idx → EReal)
    (W1 : (⟨2, ![G, H]⟩ : Shape).Idx → EReal) (b1 : Fin H → EReal) (W2 : (⟨2, ![H, N]⟩ : Shape).Idx → EReal) (b2 : Fin N → EReal) :
    (⟨2, ![E, N]⟩ : Shape).Idx → EReal :=
  fun i => h i * (mlp2 fij W1 b1 W2 b2 i * cutoff (r (i 0)))

end CFConv

end
-- ==== Proof.Region0.lean ====
import proofs.«409941_j9216999817568_1_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws
import proofs.«409941_j9216999817568_1_alg».proof.Proof.LibDotPlain
import proofs.«409941_j9216999817568_1_alg».proof.Proof.Spec

noncomputable section

namespace Cert.KernelIdeal.Region0

open Cert.KernelIdeal Cert.KernelIdeal.Gen Idealize.ShloMosaic Idealize.ShloMosaic.TcCoe Idealize.SL.Sem
open Idealize.ShloMosaic.Pipeline (Dat)
open Idealize.ShloMosaic.ValueIdx MatProd CFConv

variable (V : (c : Dev nD) → (b : Ref sig .tc) → Buf (Elt Ideal) ((c : Thread nD τ).loc b))

/-- The zero offsets of the body's whole-block accesses, as a constant function. -/
theorem offsets_zero : (![0, 0] : Fin 2 → Nat) = fun _ => 0 := funext fun a => by fin_cases a <;> rfl

/-- The body's arithmetic: the two loaded blocks, narrowed (the identity on extended reals), multiplied into a zero
    accumulator, which is their matrix product. -/
theorem payload_eq (x0 : Vec Ideal S5000x128 .f32) (x1 : Vec Ideal S128x128 .f32) :
    k0_pay1 x0 x1 = mmP x0 x1 := by
  unfold k0_pay1
  exact DotPlain.matmul_zero_eq dot_S5000x128_S128x128_S5000x128_1_0_0_1_n_n rfl rfl rfl rfl rfl rfl none x0 x1

/-- What the body leaves in the output's staging buffer: its one store covers the whole block, so the buffer holds
    the product of the two input blocks. -/
theorem staged_eq (x0 : Vec Ideal S5000x128 .f32) (x1 : Vec Ideal S128x128 .f32) :
    out0_2 x0 x1 = mmP x0 x1 := by
  unfold out0_2
  rw [View.canon_unit_zero offsets_zero]
  simp only [View.ld_unit_zero (S := S5000x128) offsets_zero, View.ld_unit_zero (S := S128x128) offsets_zero]
  exact payload_eq x0 x1

/-- The index maps over the ten grid points: the left factor's row block moves with the output's, both sit at column
    block 0; the right factor is one block at (0, 0); the output's row block index is at most 9. -/
theorem index_facts : ∀ t : Fin cfg0.N,
    win0_0.index t (0 : Fin 2) = win0_2.index t (0 : Fin 2)
    ∧ win0_0.index t (1 : Fin 2) = 0
    ∧ win0_1.index t (0 : Fin 2) = 0
    ∧ win0_1.index t (1 : Fin 2) = 0
    ∧ win0_2.index t (0 : Fin 2) ≤ 9
    ∧ win0_2.index t (1 : Fin 2) = 0 :=
  (by decide +kernel : ∀ t : Fin grid0.N, _)

/-- Every one of the ten row blocks of the output is some grid point's. -/
theorem index_onto : ∀ q : Fin 10, ∃ t : Fin cfg0.N, win0_2.index t = ![q.val, 0] :=
  (by decide +kernel : ∀ q : Fin 10, ∃ t : Fin grid0.N, win0_2.index t = ![q.val, 0])

/-- Rows of a product. If the block `x0` holds rows `n · 5000, …, n · 5000 + 4999` of `A`, entry `y` of the product
    of the block with `B` is entry `i` of the product of `A` with `B`, for `i` in row `n · 5000 + (y 0)` and column
    `y 1`: an entry of the product reads one whole row of the left factor and one whole column of the right one. -/
theorem mmP_rows (A : S50000x128.Idx → EReal) (B : S128x128.Idx → EReal) (x0 : S5000x128.Idx → EReal) (n : Nat)
    (h0 : ∀ (p : Fin 5000) (k : Fin 128) (q : Fin 50000), q.val = n * 5000 + p.val → x0 (ix2 p k) = A (ix2 q k))
    (y : S5000x128.Idx) (i : S50000x128.Idx)
    (hi0 : (i 0).val = n * 5000 + (y 0).val) (hi1 : (i 1).val = (y 1).val) :
    mmP x0 B y = mmP A B i := by
  unfold mmP
  refine Finset.sum_congr rfl fun k _ => ?_
  have e1 : (y 1 : Fin 128) = i 1 := Fin.ext hi1.symm
  exact congrArg₂ (· * ·) (h0 (y 0) k (i 0) hi0) (congrArg (fun s : Fin 128 => B (ix2 k s)) e1)

/-- The left factor's block at grid point `t` is rows `b · 5000 …` of the node features, `b` the output's row block
    index at `t`; its 128 columns are the array's. -/
theorem left_block (c : Dev nD) (t : Fin cfg0.N) (p : Fin 5000) (k : Fin 128) (q : Fin 50000)
    (hq : q.val = win0_2.index t (0 : Fin 2) * 5000 + p.val) :
    (iblk0 V c 0 t : S5000x128.Idx → EReal) (ix2 p k) = (V c main_arg0 : S50000x128.Idx → EReal) (ix2 q k) := by
  obtain ⟨e0, e1, -, -, -, -⟩ := index_facts t
  show V c main_arg0 (((cfg0.win 0).blk t).view.emb (ix2 p k)) = V c main_arg0 (ix2 q k)
  refine congrArg (V c main_arg0) ?_
  funext a
  apply Fin.ext
  match a with
  | ⟨0, _⟩ => show win0_0.index t (0 : Fin 2) * 5000 + 1 * p.val = q.val; omega
  | ⟨1, _⟩ => show win0_0.index t (1 : Fin 2) * 128 + 1 * k.val = k.val; omega

/-- The right factor's block at every grid point is the whole weight matrix. -/
theorem right_block (c : Dev nD) (t : Fin cfg0.N) :
    (iblk0 V c 1 t : S128x128.Idx → EReal) = V c main_arg5 := by
  obtain ⟨-, -, e2, e3, -, -⟩ := index_facts t
  funext z
  show V c main_arg5 (((cfg0.win 1).blk t).view.emb z) = V c main_arg5 z
  refine congrArg (V c main_arg5) ?_
  funext a
  apply Fin.ext
  match a with
  | ⟨0, _⟩ => show win0_1.index t (0 : Fin 2) * 128 + 1 * (z 0).val = (z 0).val; omega
  | ⟨1, _⟩ => show win0_1.index t (1 : Fin 2) * 128 + 1 * (z 1).val = (z 1).val; omega

/-- What grid point `t` writes back is its row block of the product of the node features with the weight matrix. -/
theorem flushed_eq (c : Dev nD) (t : Fin cfg0.N) :
    (dat0 (F := Ideal) V c).flushed 2 t
      = ((cfg0.win 2).blk t).view.read (Elt Ideal) (mmP (V c main_arg0) (V c main_arg5)) := by
  show (cfg0.win 2).cut (grid0.coords t) ((dat0 V c).after 2 t) = _
  rw [after0_2, staged_eq, right_block]
  funext y
  show mmP (iblk0 V c 0 t) (V c main_arg5) y
      = mmP (V c main_arg0) (V c main_arg5) (((cfg0.win 2).blk t).view.emb y)
  refine mmP_rows (V c main_arg0) (V c main_arg5) (iblk0 V c 0 t) (win0_2.index t (0 : Fin 2))
    (fun p k q hq => left_block V c t p k q hq) y (((cfg0.win 2).blk t).view.emb y) ?_ ?_
  · show win0_2.index t (0 : Fin 2) * 5000 + 1 * (y 0).val = win0_2.index t (0 : Fin 2) * 5000 + (y 0).val
    omega
  · obtain ⟨-, -, -, -, -, e5⟩ := index_facts t
    show win0_2.index t (1 : Fin 2) * 128 + 1 * (y 1).val = (y 1).val
    omega

/-- An index of the output array lies in grid point `t`'s block iff each coordinate lies in the block's range. -/
theorem mem_block (t : Fin cfg0.N) (i : S50000x128.Idx) :
    i ∈ ((cfg0.win 2).blk t).view.set ↔ ∀ a : Fin 2, win0_2.index t a * S5000x128.size a ≤ (i a).val
      ∧ (i a).val < win0_2.index t a * S5000x128.size a + S5000x128.size a := by
  show i ∈ ((View.whole main_v0).slice (win0_2.rect t)).set ↔ _
  rw [View.set_slice_whole, Rect.mem_set_unit]
  exact Iff.rfl

/-- The ten row blocks tile the output: row `r` lies in block `r / 5000`, and a block is as wide as the array. -/
theorem covered (i : S50000x128.Idx) :
    ∃ t : Fin cfg0.N, (cfg0.win 2).flush t = true ∧ i ∈ ((cfg0.win 2).blk t).view.set := by
  have hi0 : (i 0).val < 50000 := (i 0).isLt
  have hi1 : (i 1).val < 128 := (i 1).isLt
  obtain ⟨t, ht⟩ := index_onto ⟨(i 0).val / 5000, by omega⟩
  have q0 : win0_2.index t (0 : Fin 2) = (i 0).val / 5000 := congrFun ht 0
  have q1 : win0_2.index t (1 : Fin 2) = 0 := congrFun ht 1
  refine ⟨t, flush0_2 t, ?_⟩
  rw [mem_block]
  intro a
  match a with
  | ⟨0, _⟩ =>
    show win0_2.index t (0 : Fin 2) * 5000 ≤ (i 0).val ∧ (i 0).val < win0_2.index t (0 : Fin 2) * 5000 + 5000
    omega
  | ⟨1, _⟩ =>
    show win0_2.index t (1 : Fin 2) * 128 ≤ (i 1).val ∧ (i 1).val < win0_2.index t (1 : Fin 2) * 128 + 128
    omega

/-- The projected node features: after the first launch its output array is the matrix product of the two arrays
    the launch found in its input windows. -/
theorem array (c : Dev nD) :
    (dat0 (F := Ideal) V c).arrAt 2 cfg0.N = mmP (V c main_arg0) (V c main_arg5) :=
  (dat0 V c).arrAt_eq_of_cover 2 (mmP (V c main_arg0) (V c main_arg5)) (fun t _ => flushed_eq V c t) covered

end Cert.KernelIdeal.Region0

end
-- ==== Proof.Region1.lean ====
import proofs.«409941_j9216999817568_1_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws
import proofs.«409941_j9216999817568_1_alg».proof.Proof.LibDotPlain
import proofs.«409941_j9216999817568_1_alg».proof.Proof.Spec

noncomputable section

namespace Cert.KernelIdeal.Region1

open Cert.KernelIdeal Cert.KernelIdeal.Gen Idealize.ShloMosaic Idealize.ShloMosaic.TcCoe Idealize.SL.Sem
open Idealize.ShloMosaic.Pipeline (Dat)
open Idealize.ShloMosaic.ValueIdx MatProd CFConv

/-! ## The body's arithmetic, entry by entry -/

/-- A one-bit word widened to 32 bits and read as a signed integer is the bit read as a natural number. -/
theorem bit_widen (b : BitVec 1) : (((b.setWidth 32).toInt : ℝ) : EReal) = ((b.toNat : ℝ) : EReal) := by
  rcases BitVec.eq_zero_or_eq_one b with h | h <;> subst h <;> simp

/-- Entry `(p, k)` of a `6400 × K` by `K × 128` product into a zero accumulator is row `p` of the left factor times
    the right factor, at `k`. -/
theorem prod_apply {K : ℕ} (d : DotDims ⟨2, ![6400, K]⟩ ⟨2, ![K, 128]⟩ ⟨2, ![6400, 128]⟩)
    (hlc : d.lhsContracting = [1]) (hrc : d.rhsContracting = [0]) (hln : d.lhsNonContracting = [0])
    (hrn : d.rhsNonContracting = [1]) (hlb : d.lhsBatch = []) (hrb : d.rhsBatch = [])
    (X : FVec Ideal ⟨2, ![6400, K]⟩ .bf16) (W : FVec Ideal ⟨2, ![K, 128]⟩ .bf16) (p : Fin 6400) (k : Fin 128) :
    matmul d none X W (constant ⟨2, ![6400, 128]⟩ .f32 0x00000000#32) (ix2 p k) = rowMat (fun j => X (ix2 p j)) W k :=
  congrFun (DotPlain.matmul_zero_eq d hlc hrc hln hrn hlb hrb none X W) (ix2 p k)

/-- The bias row spread over the 6400 rows reads, at `(p, k)`, the bias at `k`. -/
theorem bias_apply (b : Vec Ideal S1x128 .f32) (hs : S1x128.ShapeCasts S1x128) (hb : S1x128.Broadcasts S6400x128)
    (p : Fin 6400) (k : Fin 128) : broadcastTo S6400x128 (shapeCast S1x128 b hs) hb (ix2 p k) = b (ix2 0 k) := by
  rw [shapeCast_self]
  exact broadcastTo_1b_ab_apply b hb p k

/-- A column spread over the 128 columns reads, at `(p, q)`, the column's entry in row `p`. -/
theorem col_apply (v : FVec Ideal S6400x1 .f32) (h : S6400x1.Broadcasts S6400x128) (p : Fin 6400) (q : Fin 128) :
    broadcastTo S6400x128 v h (ix2 p q) = v (ix2 p 0) :=
  broadcastTo_apply v h (ix2 p q) (ix2 p (0 : Fin 1)) fun a =>
    match a with
    | ⟨0, _⟩ => rfl
    | ⟨1, _⟩ => rfl

/-- The activation between the two layers, at one entry. -/
theorem act_apply (h : FVec Ideal S6400x128 .f32) (hb : FTy.bf16.bits < FTy.f32.bits) (i : S6400x128.Idx) :
    truncf .bf16 (mulf h (logistic h)) hb i = swish (h i) := rfl

/-- THE PAYLOAD: the block the body stores is the edge messages of its loaded blocks — the source rows times the
    two-layer filter of the basis rows, damped by the cutoff of the lengths' column. -/
theorem pay (x0 : Vec Ideal S6400x50 .f32) (x1 : Vec Ideal S6400x1 .f32) (x2 : Vec Ideal S6400x128 .f32)
    (x3 : Vec Ideal S50x128 .f32) (x4 : Vec Ideal S1x128 .f32) (x5 : Vec Ideal S128x128 .f32) (x6 : Vec Ideal S1x128 .f32) :
    k1_pay1 (k1_pay2 x0 x3 x4 x5 x6 x1) x2
      = edgeMsg x0 (fun e => x1 (ix2 e 0)) x2 x3 (fun k => x4 (ix2 0 k)) x5 (fun k => x6 (ix2 0 k)) := by
  funext y
  obtain ⟨p, q, rfl⟩ : ∃ (p : Fin 6400) (q : Fin 128), y = ix2 p q := ⟨y 0, y 1, eq_ix2 y⟩
  unfold k1_pay1 k1_pay2
  refine congrArg₂ (· * ·) ?_ (congrArg₂ (· * ·) (congrArg₂ (· + ·) ?_ ?_) ?_)
  · -- the source row, through a cast to its own shape
    exact congrFun (shapeCast_self x2 _) _
  · -- the second layer's product: its left factor's row `p` is the activation of the first layer's row `p`
    refine (prod_apply dot_S6400x128_S128x128_S6400x128_1_0_0_1_n_n rfl rfl rfl rfl rfl rfl _ _ p q).trans ?_
    refine congrArg (fun f => rowMat f x5 q) (funext fun k => ?_)
    refine (act_apply _ _ _).trans (congrArg swish ?_)
    exact congrArg₂ (· + ·) (prod_apply dot_S6400x50_S50x128_S6400x128_1_0_0_1_n_n rfl rfl rfl rfl rfl rfl _ _ p k)
      (bias_apply x4 _ _ p k)
  · -- the second layer's bias
    exact bias_apply x6 _ _ p q
  · -- the cutoff column: entry `(p, q)` reads the column at row `p`, where the comparison's bit is widened and converted
    refine (col_apply _ _ p q).trans ?_
    rw [shapeCast_self]
    exact congrArg₂ (· * ·) rfl (bit_widen _)

/-! ## From the blocks to the array -/

variable (V : (c : Dev nD) → (b : Ref sig .tc) → Buf (Elt Ideal) ((c : Thread nD τ).loc b))

theorem hz : (![0, 0] : Fin 2 → Nat) = fun _ => 0 := funext fun a => by fin_cases a <;> rfl

/-- The grid has 250 points, one per block of 6400 edges. -/
theorem N1 : grid1.N = 250 := by decide

/-- The windows' index maps, decided once over the grid: the three edge-indexed inputs move with the output's row block,
    the four parameter arrays sit at block 0, and the output's row block at point `t` is block `t`. -/
theorem idx_facts : ∀ t : Fin cfg1.N, win1_0.index t (0 : Fin 2) = win1_7.index t (0 : Fin 2)
    ∧ win1_0.index t (1 : Fin 2) = 0
    ∧ win1_1.index t (0 : Fin 2) = win1_7.index t (0 : Fin 2)
    ∧ win1_1.index t (1 : Fin 2) = 0
    ∧ win1_2.index t (0 : Fin 2) = win1_7.index t (0 : Fin 2)
    ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = t.val ∧ win1_7.index t (1 : Fin 2) = 0 :=
  (by decide +kernel : ∀ t : Fin grid1.N, _)

/-- Row `p` of the block of 6400 edges at point `T` is edge `T · 6400 + p`. -/
def edgeOf (T : ℕ) (hT : T < 250) (p : Fin 6400) : Fin 1600000 := ⟨T * 6400 + p.val, by have := p.isLt; omega⟩

/-- ONE ENTRY: when the three edge-indexed blocks are rows `T · 6400 + p` of their arrays, entry `(p, q)` of the
    block's edge messages is entry `(T · 6400 + p, q)` of the arrays' — an entry reads its own row of the basis
    expansion (all 50 columns), its own length and its own source entry; the parameters are shared. -/
theorem point_eq (T : ℕ) (hT : T < 250)
    (x0 : Vec Ideal S6400x50 .f32) (x1 : Vec Ideal S6400x1 .f32) (x2 : Vec Ideal S6400x128 .f32)
    (a0 : S1600000x50.Idx → EReal) (a1 : S1600000x1.Idx → EReal) (a2 : S1600000x128.Idx → EReal)
    (W1 : S50x128.Idx → EReal) (b1 : S1x128.Idx → EReal) (W2 : S128x128.Idx → EReal) (b2 : S1x128.Idx → EReal)
    (h0 : ∀ (p : Fin 6400) (j : Fin 50), x0 (ix2 p j) = a0 (ix2 (edgeOf T hT p) j))
    (h1 : ∀ p : Fin 6400, x1 (ix2 p 0) = a1 (ix2 (edgeOf T hT p) 0))
    (h2 : ∀ (p : Fin 6400) (q : Fin 128), x2 (ix2 p q) = a2 (ix2 (edgeOf T hT p) q))
    (p : Fin 6400) (q : Fin 128) :
    edgeMsg x0 (fun e => x1 (ix2 e 0)) x2 W1 (fun k => b1 (ix2 0 k)) W2 (fun k => b2 (ix2 0 k)) (ix2 p q)
      = edgeMsg a0 (fun e => a1 (ix2 e 0)) a2 W1 (fun k => b1 (ix2 0 k)) W2 (fun k => b2 (ix2 0 k)) (ix2 (edgeOf T hT p) q) :=
  congrArg₂ (· * ·) (h2 p q)
    (congrArg₂ (· * ·)
      (congrArg (fun f => mlpRow f W1 (fun k => b1 (ix2 0 k)) W2 (fun k => b2 (ix2 0 k)) q) (funext fun j => h0 p j))
      (congrArg cutoff (h1 p)))

/-- Where an element of a block of 6400 rows sits in its array, for a window whose row block moves with the output's
    and whose column block is 0. -/
theorem row_emb (T : ℕ) (hT : T < 250) {n : ℕ} (i0 i1 : ℕ) (e0 : i0 = T) (e1 : i1 = 0) (p : Fin 6400) (j : Fin n) :
    i0 * 6400 + 1 * p.val = (edgeOf T hT p).val ∧ i1 * n + 1 * j.val = j.val := by
  subst e0 e1; exact ⟨by show _ = i0 * 6400 + p.val; omega, by omega⟩

/-- The basis-expansion block at point `t` is rows `t · 6400 …` of the array. -/
theorem read0 (c : Dev nD) (t : Fin cfg1.N) (ht : t.val < 250) (p : Fin 6400) (j : Fin 50) :
    iblk1 V c 0 t (ix2 p j) = V c main_arg1 (ix2 (edgeOf t.val ht p) j) := by
  obtain ⟨e00, e01, -, -, -, -, -, -, -, -, -, -, -, -, e70, -⟩ := idx_facts t
  show V c main_arg1 (((cfg1.win 0).blk t).view.emb (ix2 p j)) = _
  refine congrArg (V c main_arg1) (funext fun a => Fin.ext ?_)
  match a with
  | ⟨0, _⟩ => exact (row_emb t.val ht (win1_0.index t (0 : Fin 2)) (win1_0.index t (1 : Fin 2)) (e00.trans e70) e01 p j).1
  | ⟨1, _⟩ => exact (row_emb t.val ht (win1_0.index t (0 : Fin 2)) (win1_0.index t (1 : Fin 2)) (e00.trans e70) e01 p j).2

/-- The lengths' block at point `t` is rows `t · 6400 …` of the column. -/
theorem read1 (c : Dev nD) (t : Fin cfg1.N) (ht : t.val < 250) (p : Fin 6400) :
    iblk1 V c 1 t (ix2 p 0) = V c main_v2 (ix2 (edgeOf t.val ht p) 0) := by
  obtain ⟨-, -, e10, e11, -, -, -, -, -, -, -, -, -, -, e70, -⟩ := idx_facts t
  show V c main_v2 (((cfg1.win 1).blk t).view.emb (ix2 p 0)) = _
  refine congrArg (V c main_v2) (funext fun a => Fin.ext ?_)
  match a with
  | ⟨0, _⟩ => exact (row_emb t.val ht (win1_1.index t (0 : Fin 2)) (win1_1.index t (1 : Fin 2)) (e10.trans e70) e11 p (0 : Fin 1)).1
  | ⟨1, _⟩ => exact (row_emb t.val ht (win1_1.index t (0 : Fin 2)) (win1_1.index t (1 : Fin 2)) (e10.trans e70) e11 p (0 : Fin 1)).2

/-- The source rows' block at point `t` is rows `t · 6400 …` of the gathered array. -/
theorem read2 (c : Dev nD) (t : Fin cfg1.N) (ht : t.val < 250) (p : Fin 6400) (q : Fin 128) :
    iblk1 V c 2 t (ix2 p q) = V c main_v1 (ix2 (edgeOf t.val ht p) q) := by
  obtain ⟨-, -, -, -, e20, e21, -, -, -, -, -, -, -, -, e70, -⟩ := idx_facts t
  show V c main_v1 (((cfg1.win 2).blk t).view.emb (ix2 p q)) = _
  refine congrArg (V c main_v1) (funext fun a => Fin.ext ?_)
  match a with
  | ⟨0, _⟩ => exact (row_emb t.val ht (win1_2.index t (0 : Fin 2)) (win1_2.index t (1 : Fin 2)) (e20.trans e70) e21 p q).1
  | ⟨1, _⟩ => exact (row_emb t.val ht (win1_2.index t (0 : Fin 2)) (win1_2.index t (1 : Fin 2)) (e20.trans e70) e21 p q).2

/-- An element of a whole-array block sits where it is: both block indices are 0. -/
theorem whole_emb {m n : ℕ} (i0 i1 : ℕ) (e0 : i0 = 0) (e1 : i1 = 0) (r : Fin m) (s : Fin n) :
    i0 * m + 1 * r.val = r.val ∧ i1 * n + 1 * s.val = s.val := by
  subst e0 e1; exact ⟨by omega, by omega⟩

/-- The first layer's weights are loaded whole at every point. -/
theorem read3 (c : Dev nD) (t : Fin cfg1.N) : iblk1 V c 3 t = V c main_arg6 := by
  obtain ⟨-, -, -, -, -, -, e30, e31, -, -, -, -, -, -, -, -⟩ := idx_facts t
  funext z
  obtain ⟨r, s, rfl⟩ : ∃ (r : Fin 50) (s : Fin 128), z = ix2 r s := ⟨z 0, z 1, eq_ix2 z⟩
  show V c main_arg6 (((cfg1.win 3).blk t).view.emb (ix2 r s)) = _
  refine congrArg (V c main_arg6) (funext fun a => Fin.ext ?_)
  match a with
  | ⟨0, _⟩ => exact (whole_emb (win1_3.index t (0 : Fin 2)) (win1_3.index t (1 : Fin 2)) e30 e31 r s).1
  | ⟨1, _⟩ => exact (whole_emb (win1_3.index t (0 : Fin 2)) (win1_3.index t (1 : Fin 2)) e30 e31 r s).2

/-- The first layer's bias row is loaded whole at every point. -/
theorem read4 (c : Dev nD) (t : Fin cfg1.N) : iblk1 V c 4 t = V c main_v3 := by
  obtain ⟨-, -, -, -, -, -, -, -, e40, e41, -, -, -, -, -, -⟩ := idx_facts t
  funext z
  obtain ⟨r, s, rfl⟩ : ∃ (r : Fin 1) (s : Fin 128), z = ix2 r s := ⟨z 0, z 1, eq_ix2 z⟩
  show V c main_v3 (((cfg1.win 4).blk t).view.emb (ix2 r s)) = _
  refine congrArg (V c main_v3) (funext fun a => Fin.ext ?_)
  match a with
  | ⟨0, _⟩ => exact (whole_emb (win1_4.index t (0 : Fin 2)) (win1_4.index t (1 : Fin 2)) e40 e41 r s).1
  | ⟨1, _⟩ => exact (whole_emb (win1_4.index t (0 : Fin 2)) (win1_4.index t (1 : Fin 2)) e40 e41 r s).2

/-- The second layer's weights are loaded whole at every point. -/
theorem read5 (c : Dev nD) (t : Fin cfg1.N) : iblk1 V c 5 t = V c main_arg8 := by
  obtain ⟨-, -, -, -, -, -, -, -, -, -, e50, e51, -, -, -, -⟩ := idx_facts t
  funext z
  obtain ⟨r, s, rfl⟩ : ∃ (r : Fin 128) (s : Fin 128), z = ix2 r s := ⟨z 0, z 1, eq_ix2 z⟩
  show V c main_arg8 (((cfg1.win 5).blk t).view.emb (ix2 r s)) = _
  refine congrArg (V c main_arg8) (funext fun a => Fin.ext ?_)
  match a with
  | ⟨0, _⟩ => exact (whole_emb (win1_5.index t (0 : Fin 2)) (win1_5.index t (1 : Fin 2)) e50 e51 r s).1
  | ⟨1, _⟩ => exact (whole_emb (win1_5.index t (0 : Fin 2)) (win1_5.index t (1 : Fin 2)) e50 e51 r s).2

/-- The second layer's bias row is loaded whole at every point. -/
theorem read6 (c : Dev nD) (t : Fin cfg1.N) : iblk1 V c 6 t = V c main_v4 := by
  obtain ⟨-, -, -, -, -, -, -, -, -, -, -, -, e60, e61, -, -⟩ := idx_facts t
  funext z
  obtain ⟨r, s, rfl⟩ : ∃ (r : Fin 1) (s : Fin 128), z = ix2 r s := ⟨z 0, z 1, eq_ix2 z⟩
  show V c main_v4 (((cfg1.win 6).blk t).view.emb (ix2 r s)) = _
  refine congrArg (V c main_v4) (funext fun a => Fin.ext ?_)
  match a with
  | ⟨0, _⟩ => exact (whole_emb (win1_6.index t (0 : Fin 2)) (win1_6.index t (1 : Fin 2)) e60 e61 r s).1
  | ⟨1, _⟩ => exact (whole_emb (win1_6.index t (0 : Fin 2)) (win1_6.index t (1 : Fin 2)) e60 e61 r s).2

/-- Where an element of the output's block at point `t` sits in the output array. -/
theorem out_emb (t : Fin cfg1.N) (ht : t.val < 250) (p : Fin 6400) (q : Fin 128) :
    ((cfg1.win 7).blk t).view.emb (ix2 p q) = ix2 (edgeOf t.val ht p) q := by
  obtain ⟨-, -, -, -, -, -, -, -, -, -, -, -, -, -, e70, e71⟩ := idx_facts t
  refine funext fun a => Fin.ext ?_
  match a with
  | ⟨0, _⟩ => exact (row_emb t.val ht (win1_7.index t (0 : Fin 2)) (win1_7.index t (1 : Fin 2)) e70 e71 p q).1
  | ⟨1, _⟩ => exact (row_emb t.val ht (win1_7.index t (0 : Fin 2)) (win1_7.index t (1 : Fin 2)) e70 e71 p q).2

/-- The edge messages of the arrays as the launch finds them. -/
abbrev G (c : Dev nD) : S1600000x128.Idx → EReal :=
  edgeMsg (V c main_arg1) (fun e => V c main_v2 (ix2 e 0)) (V c main_v1) (V c main_arg6) (fun k => V c main_v3 (ix2 0 k))
    (V c main_arg8) (fun k => V c main_v4 (ix2 0 k))

/-- WHAT POINT `t` WRITES BACK is block `t` of the edge messages of the arrays as the launch finds them. -/
theorem flushed_eq (c : Dev nD) (t : Fin cfg1.N) :
    (dat1 (F := Ideal) V c).flushed 7 t = ((cfg1.win 7).blk t).view.read (Elt Ideal) (G V c) := by
  show (cfg1.win 7).cut (grid1.coords t) ((dat1 V c).after 7 t) = _
  rw [after1_7]
  unfold out1_7
  rw [View.canon_unit_zero hz]
  simp only [View.ld_unit_zero (S := S6400x50) hz, View.ld_unit_zero (S := S6400x1) hz, View.ld_unit_zero (S := S6400x128) hz,
    View.ld_unit_zero (S := S50x128) hz, View.ld_unit_zero (S := S1x128) hz, View.ld_unit_zero (S := S128x128) hz]
  rw [pay, read3, read4, read5, read6]
  have ht : t.val < 250 := N1 ▸ t.isLt
  funext y
  obtain ⟨p, q, rfl⟩ : ∃ (p : Fin 6400) (q : Fin 128), y = ix2 p q := ⟨y 0, y 1, eq_ix2 y⟩
  show edgeMsg (iblk1 V c 0 t) (fun e => iblk1 V c 1 t (ix2 e 0)) (iblk1 V c 2 t) (V c main_arg6) (fun k => V c main_v3 (ix2 0 k))
      (V c main_arg8) (fun k => V c main_v4 (ix2 0 k)) (ix2 p q) = G V c (((cfg1.win 7).blk t).view.emb (ix2 p q))
  rw [out_emb t ht p q]
  exact point_eq t.val ht (iblk1 V c 0 t) (iblk1 V c 1 t) (iblk1 V c 2 t) (V c main_arg1) (V c main_v2) (V c main_v1)
    (V c main_arg6) (V c main_v3) (V c main_arg8) (V c main_v4) (read0 V c t ht) (read1 V c t ht) (read2 V c t ht) p q

/-- An index of the output array is in point `t`'s block iff each coordinate is in the block's range on its axis. -/
theorem mem_blk (t : Fin cfg1.N) (i : S1600000x128.Idx) :
    i ∈ ((cfg1.win 7).blk t).view.set ↔ ∀ a : Fin 2, win1_7.index t a * S6400x128.size a ≤ (i a).val ∧ (i a).val < win1_7.index t a * S6400x128.size a + S6400x128.size a := by
  show i ∈ ((View.whole main_v5).slice (win1_7.rect t)).set ↔ _
  rw [View.set_slice_whole, Rect.mem_set_unit]
  exact Iff.rfl

/-- EVERY ENTRY IS WRITTEN: edge `r` is in the block of point `r / 6400` (250 blocks of 6400 edges are the 1600000
    edges), and a block is all 128 columns wide. -/
theorem cover (i : S1600000x128.Idx) :
    ∃ t : Fin cfg1.N, (cfg1.win 7).flush t = true ∧ i ∈ ((cfg1.win 7).blk t).view.set := by
  have hi0 : (i 0).val < 1600000 := (i 0).isLt
  have hi1 : (i 1).val < 128 := (i 1).isLt
  have hN : (i 0).val / 6400 < cfg1.N := by show _ < grid1.N; rw [N1]; omega
  obtain ⟨-, -, -, -, -, -, -, -, -, -, -, -, -, -, e70, e71⟩ := idx_facts ⟨(i 0).val / 6400, hN⟩
  refine ⟨⟨(i 0).val / 6400, hN⟩, flush1_7 _, ?_⟩
  rw [mem_blk]
  intro a
  match a with
  | ⟨0, _⟩ =>
    show win1_7.index ⟨(i 0).val / 6400, hN⟩ (0 : Fin 2) * 6400 ≤ (i 0).val
      ∧ (i 0).val < win1_7.index ⟨(i 0).val / 6400, hN⟩ (0 : Fin 2) * 6400 + 6400
    rw [e70]; show (i 0).val / 6400 * 6400 ≤ (i 0).val ∧ (i 0).val < (i 0).val / 6400 * 6400 + 6400; omega
  | ⟨1, _⟩ =>
    show win1_7.index ⟨(i 0).val / 6400, hN⟩ (1 : Fin 2) * 128 ≤ (i 1).val
      ∧ (i 1).val < win1_7.index ⟨(i 0).val / 6400, hN⟩ (1 : Fin 2) * 128 + 128
    rw [e71]; omega

/-- The edge messages: after the second launch its output array is, entry by entry, the gathered source feature
    times the edge's filter (a two-layer perceptron of its basis expansion) times the cosine cutoff of its length. -/
theorem array (c : Dev nD) :
    (dat1 (F := Ideal) V c).arrAt 7 cfg1.N
      = edgeMsg (V c main_arg1) (fun e => V c main_v2 (ix2 e 0)) (V c main_v1) (V c main_arg6) (fun k => V c main_v3 (ix2 0 k))
          (V c main_arg8) (fun k => V c main_v4 (ix2 0 k)) :=
  (dat1 (F := Ideal) V c).arrAt_eq_of_cover 7 (G V c) (fun t _ => flushed_eq V c t) cover

end Cert.KernelIdeal.Region1

end
-- ==== Proof.Region2.lean ====
import proofs.«409941_j9216999817568_1_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws
import proofs.«409941_j9216999817568_1_alg».proof.Proof.LibDotPlain
import proofs.«409941_j9216999817568_1_alg».proof.Proof.Spec

noncomputable section

namespace Cert.KernelIdeal.Region2

open Cert.KernelIdeal Cert.KernelIdeal.Gen Idealize.ShloMosaic Idealize.ShloMosaic.TcCoe Idealize.SL.Sem
open Idealize.ShloMosaic.Pipeline (Dat)
open Idealize.ShloMosaic.ValueIdx MatProd CFConv

variable (V : (c : Dev nD) → (b : Ref sig .tc) → Buf (Elt Ideal) ((c : Thread nD τ).loc b))

/-! ## The body's arithmetic: a two-layer perceptron of the rows of a 5000 × 128 block -/

/-- A bias row spread down the 5000 rows reads, at row `p` and column `q`, the bias at column `q`. -/
theorem bias_spread (b : Vec Ideal S1x128 .f32) (p : Fin 5000) (q : Fin 128) :
    broadcastTo S5000x128 (shapeCast S1x128 b shapeCasts_S1x128_S1x128) broadcasts_S1x128_S5000x128 (ix2 p q) = b (ix2 0 q) := by
  rw [shapeCast_self]
  refine broadcastTo_apply b _ (ix2 p q) (ix2 0 q) (fun a => ?_)
  match a with
  | ⟨0, _⟩ => rfl
  | ⟨1, _⟩ => rfl

/-- One layer before its activation: entry `(r, s)` is row `r` of `X` times column `s` of `W`, plus the bias at `s`. The
    change of format on the way into the product is the identity on extended reals, and the product into a zero
    accumulator is the exact sum over the contracted axis. -/
theorem layer_pre (X : Vec Ideal S5000x128 .f32) (W : Vec Ideal S128x128 .f32) (b : Vec Ideal S1x128 .f32) :
    addf (matmul dot_S5000x128_S128x128_S5000x128_1_0_0_1_n_n none (truncf .bf16 X bitsLt_bf16_f32) (truncf .bf16 W bitsLt_bf16_f32)
        (constant (F := Ideal) S5000x128 .f32 0x00000000#32))
      (broadcastTo S5000x128 (shapeCast S1x128 b shapeCasts_S1x128_S1x128) broadcasts_S1x128_S5000x128)
    = fun i => rowMat (fun j => X (ix2 (i 0) j)) W (i 1) + b (ix2 0 (i 1)) := by
  have e : matmul dot_S5000x128_S128x128_S5000x128_1_0_0_1_n_n none (truncf .bf16 X bitsLt_bf16_f32) (truncf .bf16 W bitsLt_bf16_f32)
        (constant (F := Ideal) S5000x128 .f32 0x00000000#32) = mmP X W :=
    DotPlain.matmul_zero_eq dot_S5000x128_S128x128_S5000x128_1_0_0_1_n_n rfl rfl rfl rfl rfl rfl none _ _
  funext i
  obtain ⟨p, q, rfl⟩ : ∃ (p : Fin 5000) (q : Fin 128), i = ix2 p q := ⟨i 0, i 1, eq_ix2 i⟩
  show matmul dot_S5000x128_S128x128_S5000x128_1_0_0_1_n_n none (truncf .bf16 X bitsLt_bf16_f32) (truncf .bf16 W bitsLt_bf16_f32)
        (constant (F := Ideal) S5000x128 .f32 0x00000000#32) (ix2 p q) + broadcastTo S5000x128 (shapeCast S1x128 b shapeCasts_S1x128_S1x128) broadcasts_S1x128_S5000x128 (ix2 p q) = _
  rw [e, bias_spread]
  rfl

/-- The body's arithmetic is the two-layer perceptron of the rows of its first block: the first layer `x0 · x1 + x2`,
    the activation `h · σ(h)` entry by entry, the second layer `· x3 + x4`. -/
theorem body_is_mlp (x0 : Vec Ideal S5000x128 .f32) (x1 : Vec Ideal S128x128 .f32) (x2 : Vec Ideal S1x128 .f32)
    (x3 : Vec Ideal S128x128 .f32) (x4 : Vec Ideal S1x128 .f32) :
    k2_pay1 (F := Ideal) x0 x1 x2 x3 x4 = mlp2 x0 x1 (fun k => x2 (ix2 0 k)) x3 (fun k => x4 (ix2 0 k)) := by
  unfold k2_pay1
  dsimp only
  rw [shapeCast_self, layer_pre x0 x1 x2]
  refine (layer_pre _ x3 x4).trans ?_
  rfl

/-- An entry of the perceptron depends on ONE row of its first argument and on the weights: two arrays that agree on that
    row, under the same weights and biases, give the same entry in the same column. -/
theorem mlp2_row_congr (A : Vec Ideal S50000x128 .f32) (W1 : Vec Ideal S128x128 .f32) (b1 : Vec Ideal S1x128 .f32)
    (W2 : Vec Ideal S128x128 .f32) (b2 : Vec Ideal S1x128 .f32)
    (x0 : Vec Ideal S5000x128 .f32) (x1 : Vec Ideal S128x128 .f32) (x2 : Vec Ideal S1x128 .f32)
    (x3 : Vec Ideal S128x128 .f32) (x4 : Vec Ideal S1x128 .f32) (y : S5000x128.Idx) (z : S50000x128.Idx)
    (hrow : ∀ j : Fin 128, x0 (ix2 (y 0) j) = A (ix2 (z 0) j)) (hcol : (y 1 : Fin 128) = z 1)
    (h1 : x1 = W1) (h2 : x2 = b1) (h3 : x3 = W2) (h4 : x4 = b2) :
    mlp2 x0 x1 (fun k => x2 (ix2 0 k)) x3 (fun k => x4 (ix2 0 k)) y
      = mlp2 A W1 (fun k => b1 (ix2 0 k)) W2 (fun k => b2 (ix2 0 k)) z := by
  subst h1 h2 h3 h4
  show mlpRow (fun j => x0 (ix2 (y 0) j)) x1 (fun k => x2 (ix2 0 k)) x3 (fun k => x4 (ix2 0 k)) (y 1)
    = mlpRow (fun j => A (ix2 (z 0) j)) x1 (fun k => x2 (ix2 0 k)) x3 (fun k => x4 (ix2 0 k)) (z 1)
  rw [show (fun j : Fin 128 => x0 (ix2 (y 0) j)) = fun j => A (ix2 (z 0) j) from funext hrow, hcol]

/-! ## Where each window's block sits in its array -/

theorem zero_offsets : (![0, 0] : Fin 2 → Nat) = fun _ => 0 := funext fun a => by fin_cases a <;> rfl

/-- The index maps over the ten grid points: the summed messages' row block moves with the output's and sits at column
    block 0; each weight matrix and each bias row sits at block (0, 0); the output's column block is 0 and its row block
    is at most 9. -/
theorem block_indices : ∀ t : Fin cfg2.N,
    win2_0.index t (0 : Fin 2) = win2_5.index t (0 : Fin 2) ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (1 : Fin 2) = 0 ∧ win2_5.index t (0 : Fin 2) ≤ 9 :=
  (by decide +kernel : ∀ t : Fin grid2.N, _)

/-- Every one of the ten row blocks of the output is some grid point's. -/
theorem row_block_onto : ∀ q : Fin 10, ∃ t : Fin cfg2.N, win2_5.index t = ![q.val, 0] :=
  (by decide +kernel : ∀ q : Fin 10, ∃ t : Fin grid2.N, win2_5.index t = ![q.val, 0])

/-- Row `r` of the block of summed messages at point `t` is row (row block · 5000 + `r`) of the array, column by column. -/
theorem msg_block_row (c : Dev nD) (t : Fin cfg2.N) (y : S5000x128.Idx) (z : S50000x128.Idx)
    (h0 : (z 0).val = win2_5.index t (0 : Fin 2) * 5000 + (y 0).val) (h1 : (z 1).val = (y 1).val) :
    (iblk2 V c 0 t : Vec Ideal S5000x128 .f32) y = (V c main_v8 : S50000x128.Idx → Elt Ideal .f32) z := by
  obtain ⟨e0, e1, -⟩ := block_indices t
  show V c main_v8 (((cfg2.win 0).blk t).view.emb y) = V c main_v8 z
  refine congrArg _ (funext fun a => Fin.ext ?_)
  match a with
  | ⟨0, _⟩ => show win2_0.index t (0 : Fin 2) * 5000 + 1 * (y 0).val = (z 0).val; omega
  | ⟨1, _⟩ => show win2_0.index t (1 : Fin 2) * 128 + 1 * (y 1).val = (z 1).val; omega

/-- The first layer's weight matrix is loaded whole at every point. -/
theorem weight1_block (c : Dev nD) (t : Fin cfg2.N) :
    (iblk2 V c 1 t : Vec Ideal S128x128 .f32) = (V c main_arg10 : S128x128.Idx → Elt Ideal .f32) := by
  obtain ⟨-, -, e0, e1, -⟩ := block_indices t
  funext y
  show V c main_arg10 (((cfg2.win 1).blk t).view.emb y) = V c main_arg10 y
  refine congrArg _ (funext fun a => Fin.ext ?_)
  match a with
  | ⟨0, _⟩ => show win2_1.index t (0 : Fin 2) * 128 + 1 * (y 0).val = (y 0).val; omega
  | ⟨1, _⟩ => show win2_1.index t (1 : Fin 2) * 128 + 1 * (y 1).val = (y 1).val; omega

/-- The first layer's bias row is loaded whole at every point. -/
theorem bias1_block (c : Dev nD) (t : Fin cfg2.N) :
    (iblk2 V c 2 t : Vec Ideal S1x128 .f32) = (V c main_v9 : S1x128.Idx → Elt Ideal .f32) := by
  obtain ⟨-, -, -, -, e0, e1, -⟩ := block_indices t
  funext y
  show V c main_v9 (((cfg2.win 2).blk t).view.emb y) = V c main_v9 y
  refine congrArg _ (funext fun a => Fin.ext ?_)
  match a with
  | ⟨0, _⟩ => show win2_2.index t (0 : Fin 2) * 1 + 1 * (y 0).val = (y 0).val; omega
  | ⟨1, _⟩ => show win2_2.index t (1 : Fin 2) * 128 + 1 * (y 1).val = (y 1).val; omega

/-- The second layer's weight matrix is loaded whole at every point. -/
theorem weight2_block (c : Dev nD) (t : Fin cfg2.N) :
    (iblk2 V c 3 t : Vec Ideal S128x128 .f32) = (V c main_arg12 : S128x128.Idx → Elt Ideal .f32) := by
  obtain ⟨-, -, -, -, -, -, e0, e1, -⟩ := block_indices t
  funext y
  show V c main_arg12 (((cfg2.win 3).blk t).view.emb y) = V c main_arg12 y
  refine congrArg _ (funext fun a => Fin.ext ?_)
  match a with
  | ⟨0, _⟩ => show win2_3.index t (0 : Fin 2) * 128 + 1 * (y 0).val = (y 0).val; omega
  | ⟨1, _⟩ => show win2_3.index t (1 : Fin 2) * 128 + 1 * (y 1).val = (y 1).val; omega

/-- The second layer's bias row is loaded whole at every point. -/
theorem bias2_block (c : Dev nD) (t : Fin cfg2.N) :
    (iblk2 V c 4 t : Vec Ideal S1x128 .f32) = (V c main_v10 : S1x128.Idx → Elt Ideal .f32) := by
  obtain ⟨-, -, -, -, -, -, -, -, e0, e1, -⟩ := block_indices t
  funext y
  show V c main_v10 (((cfg2.win 4).blk t).view.emb y) = V c main_v10 y
  refine congrArg _ (funext fun a => Fin.ext ?_)
  match a with
  | ⟨0, _⟩ => show win2_4.index t (0 : Fin 2) * 1 + 1 * (y 0).val = (y 0).val; omega
  | ⟨1, _⟩ => show win2_4.index t (1 : Fin 2) * 128 + 1 * (y 1).val = (y 1).val; omega

/-! ## From the ten row blocks to the array -/

/-- What point `t` writes back is row block `t` of the perceptron of the WHOLE array of summed messages: entry `(r, s)` of
    the block needs row `r` of the loaded block, which is row (row block · 5000 + `r`) of the array, and the weights and
    biases, which are loaded whole. -/
theorem written_back (c : Dev nD) (t : Fin cfg2.N) :
    (dat2 (F := Ideal) V c).flushed 5 t = ((cfg2.win 5).blk t).view.read (Elt Ideal)
      (mlp2 (V c main_v8) (V c main_arg10) (fun k => V c main_v9 (ix2 0 k)) (V c main_arg12) (fun k => V c main_v10 (ix2 0 k))) := by
  show (cfg2.win 5).cut (grid2.coords t) ((dat2 (F := Ideal) V c).after 5 t) = _
  rw [after2_5]
  unfold out2_5
  rw [View.canon_unit_zero zero_offsets]
  simp only [View.ld_unit_zero (S := S5000x128) zero_offsets, View.ld_unit_zero (S := S128x128) zero_offsets,
    View.ld_unit_zero (S := S1x128) zero_offsets]
  rw [body_is_mlp]
  obtain ⟨-, -, -, -, -, -, -, -, -, -, e1, -⟩ := block_indices t
  funext y
  refine mlp2_row_congr (V c main_v8) (V c main_arg10) (V c main_v9) (V c main_arg12) (V c main_v10)
    (iblk2 V c 0 t) (iblk2 V c 1 t) (iblk2 V c 2 t) (iblk2 V c 3 t) (iblk2 V c 4 t) y (((cfg2.win 5).blk t).view.emb y)
    (fun j => msg_block_row V c t (ix2 (y 0) j) (ix2 ((((cfg2.win 5).blk t).view.emb y) 0) j) ?_ rfl) ?_
    (weight1_block V c t) (bias1_block V c t) (weight2_block V c t) (bias2_block V c t)
  · show (((cfg2.win 5).blk t).view.emb y 0).val = win2_5.index t (0 : Fin 2) * 5000 + (y 0).val
    show win2_5.index t (0 : Fin 2) * 5000 + 1 * (y 0).val = win2_5.index t (0 : Fin 2) * 5000 + (y 0).val
    omega
  · refine Fin.ext ?_
    show (y 1).val = win2_5.index t (1 : Fin 2) * 128 + 1 * (y 1).val
    omega

/-- An index of the output array is in point `t`'s block iff, on each axis, it lies in the block's range. -/
theorem mem_row_block (t : Fin cfg2.N) (i : S50000x128.Idx) :
    i ∈ ((cfg2.win 5).blk t).view.set ↔ ∀ a : Fin 2, win2_5.index t a * S5000x128.size a ≤ (i a).val ∧ (i a).val < win2_5.index t a * S5000x128.size a + S5000x128.size a := by
  show i ∈ ((View.whole main_v11).slice (win2_5.rect t)).set ↔ _
  rw [View.set_slice_whole, Rect.mem_set_unit]
  exact Iff.rfl

/-- Row `r` of the output lies in row block `r / 5000`, whose point writes back; a block spans all 128 columns. -/
theorem rows_covered (i : S50000x128.Idx) : ∃ t : Fin cfg2.N, (cfg2.win 5).flush t = true ∧ i ∈ ((cfg2.win 5).blk t).view.set := by
  have hi0 : (i 0).val < 50000 := (i 0).isLt
  have hi1 : (i 1).val < 128 := (i 1).isLt
  obtain ⟨t, ht⟩ := row_block_onto ⟨(i 0).val / 5000, by omega⟩
  have q0 : win2_5.index t (0 : Fin 2) = (i 0).val / 5000 := congrFun ht 0
  have q1 : win2_5.index t (1 : Fin 2) = 0 := congrFun ht 1
  refine ⟨t, flush2_5 t, ?_⟩
  rw [mem_row_block]
  intro a
  match a with
  | ⟨0, _⟩ => show win2_5.index t (0 : Fin 2) * 5000 ≤ (i 0).val ∧ (i 0).val < win2_5.index t (0 : Fin 2) * 5000 + 5000; omega
  | ⟨1, _⟩ => show win2_5.index t (1 : Fin 2) * 128 ≤ (i 1).val ∧ (i 1).val < win2_5.index t (1 : Fin 2) * 128 + 128; omega

/-- The output: after the third launch its output array is the two-layer perceptron of the rows of the summed
    messages. -/
theorem array (c : Dev nD) :
    (dat2 (F := Ideal) V c).arrAt 5 cfg2.N
      = mlp2 (V c main_v8) (V c main_arg10) (fun k => V c main_v9 (ix2 0 k)) (V c main_arg12) (fun k => V c main_v10 (ix2 0 k)) :=
  (dat2 (F := Ideal) V c).arrAt_eq_of_cover 5 _ (fun t _ => written_back V c t) rows_covered

end Cert.KernelIdeal.Region2

end
-- ==== Proof.Fold.lean ====
/-
  The kernel program's result as one function of its arguments: the contents of its buffers followed from the launch
  through the three launches and the host operations between them. Each launch's output array is the function of its
  input arrays that its region's value lemma states; each host stretch rewrites the buffers it writes; an argument
  array is never written.
-/
import proofs.«409941_j9216999817568_1_alg».proof.Proof.Gen.KernelIdeal.Frame
import proofs.«409941_j9216999817568_1_alg».proof.Proof.HostSide
import proofs.«409941_j9216999817568_1_alg».proof.Proof.Region0
import proofs.«409941_j9216999817568_1_alg».proof.Proof.Region1
import proofs.«409941_j9216999817568_1_alg».proof.Proof.Region2
import Idealize.ShloMosaic.Lib.StableHlo.Run
import Idealize.ShloMosaic.Lib.Pipeline.Value
import Idealize.ShloMosaic.Lib.ValueIdx
import Idealize.ShloMosaic.Lib.ValueLayout

set_option maxRecDepth 16384

noncomputable section

namespace Cert.KernelIdeal.Fold

open Cert.KernelIdeal Cert.KernelIdeal.Gen Idealize.ShloMosaic Idealize.ShloMosaic.TcCoe Idealize.SL.Sem Idealize.ShloMosaic.StableHlo
open Idealize.ShloMosaic.Pipeline (Dat)
open Idealize.ShloMosaic.ValueIdx MatProd CFConv Cert.KernelIdeal.HostSide

variable (m : (ℓ : Loc nD τ sig) → Buf (Elt Ideal) ℓ) (ρ : Dev nD → PrngReg)

variable (c : Dev nD)

/-! ## Typed references of an outlined host function: the transport of contents is the identity -/

/-- Contents moved to a buffer's own type and back are the contents. -/
theorem ofBuf_toBuf {Val : EltTy → Type} {T : BufTy} (x : TRef sig T) (v : T.Contents Val) : x.ofBuf (x.toBuf v) = v := by
  obtain ⟨r, h, _, _⟩ := x
  subst h
  rfl

set_option maxRecDepth 200000 in
theorem ofBuf_src {Val : EltTy → Type} (h1 h2 h3) (v : main_arg3.ty.Contents Val) :
    ((TRef.of main_arg3 h1 h2 h3 : TRef sig ⟨S1600000, .i32⟩).ofBuf v : (⟨S1600000, .i32⟩ : BufTy).Contents Val) = v := rfl

set_option maxRecDepth 200000 in
theorem ofBuf_proj {Val : EltTy → Type} (h1 h2 h3) (v : main_v0.ty.Contents Val) :
    ((TRef.of main_v0 h1 h2 h3 : TRef sig ⟨S50000x128, .f32⟩).ofBuf v : (⟨S50000x128, .f32⟩ : BufTy).Contents Val) = v := rfl

set_option maxRecDepth 200000 in
theorem toBuf_rows {Val : EltTy → Type} (h1 h2 h3) (v : (⟨S1600000x128, .f32⟩ : BufTy).Contents Val) :
    ((TRef.of main_v1 h1 h2 h3 : TRef sig ⟨S1600000x128, .f32⟩).toBuf v : main_v1.ty.Contents Val) = v := rfl

/-! ## The first launch and what follows it -/

/-- An array that is no window of the first launch is as launched when that launch ends. -/
theorem after0_keep (b : Ref sig .tc) (hb : ∀ w, Pipeline.arrRef spec0 w ≠ b) :
    W1 m ρ c (Proc.devRef .tc b) = m ((c : Thread nD τ).loc b) := W1_of_ne m ρ c b hb

/-- The projected node features. -/
theorem proj_eq : W1 m ρ c (Proc.devRef .tc main_v0) = mmP (m ((c : Thread nD τ).loc main_arg0)) (m ((c : Thread nD τ).loc main_arg5)) :=
  (W1_arr m ρ c 2).trans (Region0.array (V0 m ρ) c)

set_option maxHeartbeats 4000000 in
/-- What the second launch finds in its gathered-rows window. -/
theorem entry1_rows : W3 m ρ c (Proc.devRef .tc main_v1)
    = takeRows (W1 m ρ c (Proc.devRef .tc main_v0)) (W1 m ρ c (Proc.devRef .tc main_arg3)) := by
  show StableHlo.after hostOps1_1 (StableHlo.after hostOps1 (W1 m ρ c)) (Proc.devRef .tc main_v1) = _
  after_results_simp
  simp only [ofBuf_toBuf, ofBuf_src, ofBuf_proj, toBuf_rows]
  rfl

/-- What the second launch finds in its edge-length window: the lengths as a column. -/
theorem entry1_len (e : Fin 1600000) : W3 m ρ c (Proc.devRef .tc main_v2) (ix2 e 0) = m ((c : Thread nD τ).loc main_arg2) (ix1 e) := by
  show StableHlo.after hostOps1_1 (StableHlo.after hostOps1 (W1 m ρ c)) (Proc.devRef .tc main_v2) (ix2 e 0) = _
  after_results
  rw [after0_keep m ρ c main_arg2 (by decide)]
  refine broadcastInDim_apply _ _ _ (ix2 e 0) (ix1 e) (fun a => ?_)
  match a with
  | ⟨0, _⟩ =>
    show e.val = if (1600000 : ℕ) = 1 then 0 else e.val
    rw [if_neg (by decide)]

/-- The filter's two biases as one-row arrays. -/
theorem entry1_b1 (k : Fin 128) : W3 m ρ c (Proc.devRef .tc main_v3) (ix2 0 k) = m ((c : Thread nD τ).loc main_arg7) (ix1 k) := by
  show StableHlo.after hostOps1_1 (StableHlo.after hostOps1 (W1 m ρ c)) (Proc.devRef .tc main_v3) (ix2 0 k) = _
  after_results
  rw [after0_keep m ρ c main_arg7 (by decide)]
  exact shapeCast_a_1a_apply (m ((c : Thread nD τ).loc main_arg7)) shapeCasts_S128_S1x128 0 k
theorem entry1_b2 (k : Fin 128) : W3 m ρ c (Proc.devRef .tc main_v4) (ix2 0 k) = m ((c : Thread nD τ).loc main_arg9) (ix1 k) := by
  show StableHlo.after hostOps1_1 (StableHlo.after hostOps1 (W1 m ρ c)) (Proc.devRef .tc main_v4) (ix2 0 k) = _
  after_results
  rw [after0_keep m ρ c main_arg9 (by decide)]
  exact shapeCast_a_1a_apply (m ((c : Thread nD τ).loc main_arg9)) shapeCasts_S128_S1x128 0 k

set_option maxHeartbeats 4000000 in
/-- An argument array the first launch does not name is as launched when the second launch is entered. -/
theorem entry1_keep (b : Ref sig .tc) (hb : ∀ w, Pipeline.arrRef spec0 w ≠ b)
    (h1 : ∀ op ∈ (hostOps1 : List (HloOp τ sig (Elt Ideal))), Proc.devRef .tc b ∉ op.writes)
    (h2 : ∀ op ∈ (hostOps1_1 : List (HloOp τ sig (Elt Ideal))), Proc.devRef .tc b ∉ op.writes) :
    W3 m ρ c (Proc.devRef .tc b) = m ((c : Thread nD τ).loc b) :=
  (StableHlo.after_of_forall_not_mem _ _ h2).trans ((StableHlo.after_of_forall_not_mem _ _ h1).trans (after0_keep m ρ c b hb))

/-! ## The second launch and what follows it -/

theorem entry1_fij : W3 m ρ c (Proc.devRef .tc main_arg1) = m ((c : Thread nD τ).loc main_arg1) :=
  entry1_keep m ρ c main_arg1 (by decide)
    (List.forall_iff_forall_mem.mp (by
      simp only [hostOps1, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    (List.forall_iff_forall_mem.mp (by
      simp only [hostOps1_1, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
theorem entry1_w1 : W3 m ρ c (Proc.devRef .tc main_arg6) = m ((c : Thread nD τ).loc main_arg6) :=
  entry1_keep m ρ c main_arg6 (by decide)
    (List.forall_iff_forall_mem.mp (by
      simp only [hostOps1, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    (List.forall_iff_forall_mem.mp (by
      simp only [hostOps1_1, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
theorem entry1_w2 : W3 m ρ c (Proc.devRef .tc main_arg8) = m ((c : Thread nD τ).loc main_arg8) :=
  entry1_keep m ρ c main_arg8 (by decide)
    (List.forall_iff_forall_mem.mp (by
      simp only [hostOps1, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    (List.forall_iff_forall_mem.mp (by
      simp only [hostOps1_1, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))

/-- The edge messages when the second launch ends, where every source index names a node. -/
theorem msg_eq (hsrc : ∀ e : S1600000.Idx, IntOp.cmpi .sge (m ((c : Thread nD τ).loc main_arg3) e) 0#32 = 1#1 ∧ IntOp.cmpi .slt (m ((c : Thread nD τ).loc main_arg3) e) 50000#32 = 1#1) :
    W4 m ρ c (Proc.devRef .tc main_v5)
      = edgeMsg (m ((c : Thread nD τ).loc main_arg1)) (fun e => m ((c : Thread nD τ).loc main_arg2) (ix1 e))
        (Host.gather gather_S50000x128_S1600000x1_S1600000x128_1_0_n_n_0_1_1128 (mmP (m ((c : Thread nD τ).loc main_arg0)) (m ((c : Thread nD τ).loc main_arg5))) (wrapIdx (m ((c : Thread nD τ).loc main_arg3))))
        (m ((c : Thread nD τ).loc main_arg6)) (fun k => m ((c : Thread nD τ).loc main_arg7) (ix1 k)) (m ((c : Thread nD τ).loc main_arg8)) (fun k => m ((c : Thread nD τ).loc main_arg9) (ix1 k)) := by
  refine (W4_arr m ρ c 7).trans ((Region1.array (V3 m ρ) c).trans ?_)
  have e1 : V3 m ρ c main_arg1 = m ((c : Thread nD τ).loc main_arg1) := entry1_fij m ρ c
  have e2 : (fun e : Fin 1600000 => V3 m ρ c main_v2 (ix2 e 0)) = fun e => m ((c : Thread nD τ).loc main_arg2) (ix1 e) :=
    funext fun e => entry1_len m ρ c e
  have e3 : V3 m ρ c main_v1 = Host.gather gather_S50000x128_S1600000x1_S1600000x128_1_0_n_n_0_1_1128
      (mmP (m ((c : Thread nD τ).loc main_arg0)) (m ((c : Thread nD τ).loc main_arg5))) (wrapIdx (m ((c : Thread nD τ).loc main_arg3))) := by
    show W3 m ρ c (Proc.devRef .tc main_v1) = _
    rw [entry1_rows, proj_eq, after0_keep m ρ c main_arg3 (by decide)]
    exact takeRows_eq _ _ hsrc
  have e4 : V3 m ρ c main_arg6 = m ((c : Thread nD τ).loc main_arg6) := entry1_w1 m ρ c
  have e5 : (fun k : Fin 128 => V3 m ρ c main_v3 (ix2 0 k)) = fun k => m ((c : Thread nD τ).loc main_arg7) (ix1 k) :=
    funext fun k => entry1_b1 m ρ c k
  have e6 : V3 m ρ c main_arg8 = m ((c : Thread nD τ).loc main_arg8) := entry1_w2 m ρ c
  have e7 : (fun k : Fin 128 => V3 m ρ c main_v4 (ix2 0 k)) = fun k => m ((c : Thread nD τ).loc main_arg9) (ix1 k) :=
    funext fun k => entry1_b2 m ρ c k
  rw [e1, e2, e3, e4, e5, e6, e7]

/-- An argument array that neither of the first two launches names is as launched when the second launch ends. -/
theorem exit1_keep (b : Ref sig .tc) (hb0 : ∀ w, Pipeline.arrRef spec0 w ≠ b) (hb1 : ∀ w, Pipeline.arrRef spec1 w ≠ b)
    (h1 : ∀ op ∈ (hostOps1 : List (HloOp τ sig (Elt Ideal))), Proc.devRef .tc b ∉ op.writes)
    (h2 : ∀ op ∈ (hostOps1_1 : List (HloOp τ sig (Elt Ideal))), Proc.devRef .tc b ∉ op.writes) :
    W4 m ρ c (Proc.devRef .tc b) = m ((c : Thread nD τ).loc b) :=
  (W4_of_ne m ρ c b hb1).trans (entry1_keep m ρ c b hb0 h1 h2)

theorem exit1_dst : W4 m ρ c (Proc.devRef .tc main_arg4) = m ((c : Thread nD τ).loc main_arg4) :=
  exit1_keep m ρ c main_arg4 (by decide) (by decide)
    (List.forall_iff_forall_mem.mp (by
      simp only [hostOps1, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    (List.forall_iff_forall_mem.mp (by
      simp only [hostOps1_1, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))

/-- The summed messages the third launch finds. -/
theorem entry2_sum : W5 m ρ c (Proc.devRef .tc main_v8) = sumAtDst (m ((c : Thread nD τ).loc main_arg4)) (W4 m ρ c (Proc.devRef .tc main_v5)) := by
  show StableHlo.after hostOps2 (W4 m ρ c) (Proc.devRef .tc main_v8) = _
  after_results
  rw [exit1_dst]
  rfl

/-- The message perceptron's two biases as one-row arrays. -/
theorem entry2_b1 (k : Fin 128) : W5 m ρ c (Proc.devRef .tc main_v9) (ix2 0 k) = m ((c : Thread nD τ).loc main_arg11) (ix1 k) := by
  show StableHlo.after hostOps2 (W4 m ρ c) (Proc.devRef .tc main_v9) (ix2 0 k) = _
  after_results
  rw [exit1_keep m ρ c main_arg11 (by decide) (by decide)
    (List.forall_iff_forall_mem.mp (by
      simp only [hostOps1, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    (List.forall_iff_forall_mem.mp (by
      simp only [hostOps1_1, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))]
  exact shapeCast_a_1a_apply (m ((c : Thread nD τ).loc main_arg11)) shapeCasts_S128_S1x128 0 k
theorem entry2_b2 (k : Fin 128) : W5 m ρ c (Proc.devRef .tc main_v10) (ix2 0 k) = m ((c : Thread nD τ).loc main_arg13) (ix1 k) := by
  show StableHlo.after hostOps2 (W4 m ρ c) (Proc.devRef .tc main_v10) (ix2 0 k) = _
  after_results
  rw [exit1_keep m ρ c main_arg13 (by decide) (by decide)
    (List.forall_iff_forall_mem.mp (by
      simp only [hostOps1, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    (List.forall_iff_forall_mem.mp (by
      simp only [hostOps1_1, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))]
  exact shapeCast_a_1a_apply (m ((c : Thread nD τ).loc main_arg13)) shapeCasts_S128_S1x128 0 k

theorem entry2_w1 : W5 m ρ c (Proc.devRef .tc main_arg10) = m ((c : Thread nD τ).loc main_arg10) :=
  (StableHlo.after_of_forall_not_mem _ _ (List.forall_iff_forall_mem.mp (by
      simp only [hostOps2, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans
    (exit1_keep m ρ c main_arg10 (by decide) (by decide)
    (List.forall_iff_forall_mem.mp (by
      simp only [hostOps1, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    (List.forall_iff_forall_mem.mp (by
      simp only [hostOps1_1, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))))
theorem entry2_w2 : W5 m ρ c (Proc.devRef .tc main_arg12) = m ((c : Thread nD τ).loc main_arg12) :=
  (StableHlo.after_of_forall_not_mem _ _ (List.forall_iff_forall_mem.mp (by
      simp only [hostOps2, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans
    (exit1_keep m ρ c main_arg12 (by decide) (by decide)
    (List.forall_iff_forall_mem.mp (by
      simp only [hostOps1, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    (List.forall_iff_forall_mem.mp (by
      simp only [hostOps1_1, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))))

/-! ## The result -/

/-- THE KERNEL PROGRAM'S RESULT, where every source index names a node: the two-layer perceptron of the rows of the
    messages summed at their destinations, each message the projected source feature times the damped filter. -/
theorem result_eq (hsrc : ∀ e : S1600000.Idx, IntOp.cmpi .sge (m ((c : Thread nD τ).loc main_arg3) e) 0#32 = 1#1 ∧ IntOp.cmpi .slt (m ((c : Thread nD τ).loc main_arg3) e) 50000#32 = 1#1) :
    W6 m ρ c (Proc.devRef .tc main_v11)
      = mlp2 (sumAtDst (m ((c : Thread nD τ).loc main_arg4)) (edgeMsg (m ((c : Thread nD τ).loc main_arg1)) (fun e => m ((c : Thread nD τ).loc main_arg2) (ix1 e))
        (Host.gather gather_S50000x128_S1600000x1_S1600000x128_1_0_n_n_0_1_1128 (mmP (m ((c : Thread nD τ).loc main_arg0)) (m ((c : Thread nD τ).loc main_arg5))) (wrapIdx (m ((c : Thread nD τ).loc main_arg3))))
        (m ((c : Thread nD τ).loc main_arg6)) (fun k => m ((c : Thread nD τ).loc main_arg7) (ix1 k)) (m ((c : Thread nD τ).loc main_arg8)) (fun k => m ((c : Thread nD τ).loc main_arg9) (ix1 k))))
          (m ((c : Thread nD τ).loc main_arg10)) (fun k => m ((c : Thread nD τ).loc main_arg11) (ix1 k)) (m ((c : Thread nD τ).loc main_arg12)) (fun k => m ((c : Thread nD τ).loc main_arg13) (ix1 k)) := by
  refine (W6_arr m ρ c 5).trans ((Region2.array (V5 m ρ) c).trans ?_)
  have e1 : V5 m ρ c main_v8 = sumAtDst (m ((c : Thread nD τ).loc main_arg4)) (edgeMsg (m ((c : Thread nD τ).loc main_arg1)) (fun e => m ((c : Thread nD τ).loc main_arg2) (ix1 e))
        (Host.gather gather_S50000x128_S1600000x1_S1600000x128_1_0_n_n_0_1_1128 (mmP (m ((c : Thread nD τ).loc main_arg0)) (m ((c : Thread nD τ).loc main_arg5))) (wrapIdx (m ((c : Thread nD τ).loc main_arg3))))
        (m ((c : Thread nD τ).loc main_arg6)) (fun k => m ((c : Thread nD τ).loc main_arg7) (ix1 k)) (m ((c : Thread nD τ).loc main_arg8)) (fun k => m ((c : Thread nD τ).loc main_arg9) (ix1 k))) := by
    show W5 m ρ c (Proc.devRef .tc main_v8) = _
    rw [entry2_sum, msg_eq m ρ c hsrc]
  have e2 : V5 m ρ c main_arg10 = m ((c : Thread nD τ).loc main_arg10) := entry2_w1 m ρ c
  have e3 : (fun k : Fin 128 => V5 m ρ c main_v9 (ix2 0 k)) = fun k => m ((c : Thread nD τ).loc main_arg11) (ix1 k) :=
    funext fun k => entry2_b1 m ρ c k
  have e4 : V5 m ρ c main_arg12 = m ((c : Thread nD τ).loc main_arg12) := entry2_w2 m ρ c
  have e5 : (fun k : Fin 128 => V5 m ρ c main_v10 (ix2 0 k)) = fun k => m ((c : Thread nD τ).loc main_arg13) (ix1 k) :=
    funext fun k => entry2_b2 m ρ c k
  rw [e1, e2, e3, e4, e5]

end Cert.KernelIdeal.Fold
end
-- ==== Proof.RefStages.lean ====
import proofs.«409941_j9216999817568_1_alg».proof.Proof.Gen.ReferenceIdeal.Read
import Idealize.ShloMosaic.Lib.Pipeline.Value
import Idealize.ShloMosaic.Lib.ValueIdx
import Idealize.ShloMosaic.Lib.ValueLayout
import Idealize.ShloMosaic.PureOps.Ideal.Laws
import proofs.«409941_j9216999817568_1_alg».proof.Proof.LibDotPlain
import proofs.«409941_j9216999817568_1_alg».proof.Proof.Spec

noncomputable section

namespace Cert.ReferenceIdeal.Stages

open Cert.ReferenceIdeal Cert.ReferenceIdeal.Gen Cert.ReferenceIdeal.Read Idealize.ShloMosaic Idealize.ShloMosaic.TcCoe Idealize.SL.Sem
open Idealize.ShloMosaic.ValueIdx MatProd CFConv

/-- The single-precision word of the literal one is the extended real one. -/
theorem one_word : Ideal.ofBits .f32 0x3F800000#32 = 1 := by
  simp [Ideal.ofBits, Ideal.ieee, -EReal.coe_mul]; norm_num

/-- `h · (1 / (1 + exp (−h)))`, the logistic function spelt by a negation, an exponential, a sum and a quotient,
    is `swish h`. -/
theorem swish_spelt (h : EReal) :
    h * Ideal.div (Ideal.ofBits .f32 0x3F800000#32) (Ideal.ofBits .f32 0x3F800000#32 + Ideal.exp (-h)) = swish h := by
  rw [one_word]; rfl

/-! ## The node projection -/

/-- The reference's projected node features are the matrix product of the features and the projection. -/
theorem proj_eq (x0 : (⟨S50000x128, .f32⟩ : BufTy).Contents (Elt Ideal)) (x5 : (⟨S128x128, .f32⟩ : BufTy).Contents (Elt Ideal)) :
    val_main_v31 (F := Ideal) x0 x5 = mmP x0 x5 := by
  unfold val_main_v31
  exact DotPlain.dotGeneral_eq dot_S50000x128_S128x128_S50000x128_1_0_0_1_n_n rfl rfl rfl rfl rfl rfl none .single x0 x5

/-! ## The cosine cutoff column -/

/-- The cutoff column at edge `e` depends on the length of edge `e` alone: it is the cosine cutoff of that length. -/
theorem cut_apply (x2 : (⟨S1600000, .f32⟩ : BufTy).Contents (Elt Ideal)) (e : S1600000.Idx) :
    val_main_v12 (F := Ideal) x2 e = cutoff (x2 e) := by
  rw [val_main_v12_apply, val_main_v8_apply, val_main_v7_apply, val_main_cst_2_apply, val_main_v6_apply, val_main_v4_apply,
    val_main_v3_apply, val_main_v1_apply, val_main_v0_apply, val_main_cst_apply, val_main_v2_apply, val_main_cst_0_apply,
    val_main_v5_apply, val_main_cst_1_apply, val_main_v11_apply, val_main_v10_apply, val_main_v9_apply, val_main_cst_3_apply]
  rfl

/-- Entry `(e, s)` of the cutoff spread over the filter's columns reads the cutoff column at edge `e`. -/
theorem cut_idx (i : S1600000x128.Idx) : idx_main_v28 (idx_main_v29 i) = @ix1 1600000 (i 0) :=
  funext fun a => Fin.ext (by match a with | ⟨0, _⟩ => rfl)

/-! ## The filter perceptron -/

/-- The first layer's product at entry `(e, k)` reads row `e` of the basis expansion … -/
theorem lidx13 (j : S1600000x128.Idx) (k : Fin 50) : lidx_main_v13 j k = @ix2 1600000 50 (j 0) k :=
  funext fun a => Fin.ext (by match a with | ⟨0, _⟩ => rfl | ⟨1, _⟩ => rfl)
/-- … and column `k` of the first weight matrix. -/
theorem ridx13 (j : S1600000x128.Idx) (k : Fin 50) : ridx_main_v13 j k = @ix2 50 128 k (j 1) :=
  funext fun a => Fin.ext (by match a with | ⟨0, _⟩ => rfl | ⟨1, _⟩ => rfl)
/-- The first bias spread over the rows is read at the entry's column. -/
theorem bias15 (j : S1600000x128.Idx) : idx_main_v14 (idx_main_v15 j) = @ix1 128 (j 1) :=
  funext fun a => Fin.ext (by match a with | ⟨0, _⟩ => rfl)
/-- The second layer's product at entry `(e, s)` reads row `e` of the hidden layer … -/
theorem lidx24 (i : S1600000x128.Idx) (k : Fin 128) : lidx_main_v24 i k = @ix2 1600000 128 (i 0) k :=
  funext fun a => Fin.ext (by match a with | ⟨0, _⟩ => rfl | ⟨1, _⟩ => rfl)
/-- … and column `s` of the second weight matrix. -/
theorem ridx24 (i : S1600000x128.Idx) (k : Fin 128) : ridx_main_v24 i k = @ix2 128 128 k (i 1) :=
  funext fun a => Fin.ext (by match a with | ⟨0, _⟩ => rfl | ⟨1, _⟩ => rfl)
/-- The second bias spread over the rows is read at the entry's column. -/
theorem bias26 (i : S1600000x128.Idx) : idx_main_v25 (idx_main_v26 i) = @ix1 128 (i 1) :=
  funext fun a => Fin.ext (by match a with | ⟨0, _⟩ => rfl)

/-- The hidden layer before its activation, at entry `(e, k)`: row `e` of the basis expansion times column `k` of
    the first weights, plus the first bias at `k`. -/
theorem f_pre (x1 : (⟨S1600000x50, .f32⟩ : BufTy).Contents (Elt Ideal)) (x6 : (⟨S50x128, .f32⟩ : BufTy).Contents (Elt Ideal)) (x7 : (⟨S128, .f32⟩ : BufTy).Contents (Elt Ideal)) (j : S1600000x128.Idx) :
    val_main_v16 (F := Ideal) x1 x6 x7 j = rowMat (fun k => x1 (ix2 (j 0) k)) x6 (j 1) + x7 (ix1 (j 1)) := by
  rw [val_main_v16_apply, val_main_v13_apply, val_main_v15_apply, val_main_v14_apply]
  simp only [lidx13, ridx13, bias15, Ideal.addf_def]
  rfl

/-- The hidden layer at an entry is `swish` of the pre-activation at the same entry. -/
theorem f_act (x1 : (⟨S1600000x50, .f32⟩ : BufTy).Contents (Elt Ideal)) (x6 : (⟨S50x128, .f32⟩ : BufTy).Contents (Elt Ideal)) (x7 : (⟨S128, .f32⟩ : BufTy).Contents (Elt Ideal)) (j : S1600000x128.Idx) :
    val_main_v23 (F := Ideal) x1 x6 x7 j = swish (val_main_v16 (F := Ideal) x1 x6 x7 j) := by
  rw [val_main_v23_apply, val_main_v22_apply, val_main_v21_apply, val_main_cst_5_apply, val_main_v20_apply, val_main_v19_apply,
    val_main_cst_4_apply, val_main_v18_apply, val_main_v17_apply]
  simp only [Ideal.mulf_def, Ideal.hostDivf_def, Ideal.ofBits_def, Ideal.addf_def, Ideal.hostUnary_exp_def, Ideal.hostNegf_def,
    Ideal.negf_def]
  exact swish_spelt _

/-- The filter perceptron's output at entry `(e, s)` depends on row `e` of the basis expansion alone. -/
theorem f_out (x1 : (⟨S1600000x50, .f32⟩ : BufTy).Contents (Elt Ideal)) (x6 : (⟨S50x128, .f32⟩ : BufTy).Contents (Elt Ideal)) (x7 : (⟨S128, .f32⟩ : BufTy).Contents (Elt Ideal))
    (x8 : (⟨S128x128, .f32⟩ : BufTy).Contents (Elt Ideal)) (x9 : (⟨S128, .f32⟩ : BufTy).Contents (Elt Ideal)) (i : S1600000x128.Idx) :
    val_main_v27 (F := Ideal) x1 x6 x7 x8 x9 i = mlp2 x1 x6 (fun k => x7 (ix1 k)) x8 (fun k => x9 (ix1 k)) i := by
  rw [val_main_v27_apply, val_main_v24_apply, val_main_v26_apply, val_main_v25_apply]
  simp only [lidx24, ridx24, bias26, f_act, f_pre, Ideal.addf_def]
  rfl

/-- The reference's damped edge filter, entry by entry: the two-layer perceptron of the edge's basis expansion times
    the cosine cutoff of its length. -/
theorem filter_eq (x1 : (⟨S1600000x50, .f32⟩ : BufTy).Contents (Elt Ideal)) (x2 : (⟨S1600000, .f32⟩ : BufTy).Contents (Elt Ideal)) (x6 : (⟨S50x128, .f32⟩ : BufTy).Contents (Elt Ideal)) (x7 : (⟨S128, .f32⟩ : BufTy).Contents (Elt Ideal))
    (x8 : (⟨S128x128, .f32⟩ : BufTy).Contents (Elt Ideal)) (x9 : (⟨S128, .f32⟩ : BufTy).Contents (Elt Ideal)) :
    val_main_v30 (F := Ideal) x1 x2 x6 x7 x8 x9
      = fun i => mlp2 x1 x6 (fun k => x7 (ix1 k)) x8 (fun k => x9 (ix1 k)) i * cutoff (x2 (ix1 (i 0))) := by
  funext i
  rw [val_main_v30_apply, val_main_v29_apply, val_main_v28_apply, f_out, cut_apply, cut_idx]
  rfl

/-! ## The message perceptron over the summed messages -/

/-- The first layer's product at entry `(n, k)` reads row `n` of the summed messages … -/
theorem lidx43 (j : S50000x128.Idx) (k : Fin 128) : lidx_main_v43 j k = @ix2 50000 128 (j 0) k :=
  funext fun a => Fin.ext (by match a with | ⟨0, _⟩ => rfl | ⟨1, _⟩ => rfl)
/-- … and column `k` of the first weight matrix. -/
theorem ridx43 (j : S50000x128.Idx) (k : Fin 128) : ridx_main_v43 j k = @ix2 128 128 k (j 1) :=
  funext fun a => Fin.ext (by match a with | ⟨0, _⟩ => rfl | ⟨1, _⟩ => rfl)
/-- The first bias spread over the rows is read at the entry's column. -/
theorem bias45 (j : S50000x128.Idx) : idx_main_v44 (idx_main_v45 j) = @ix1 128 (j 1) :=
  funext fun a => Fin.ext (by match a with | ⟨0, _⟩ => rfl)
/-- The second layer's product at entry `(n, s)` reads row `n` of the hidden layer … -/
theorem lidx54 (i : S50000x128.Idx) (k : Fin 128) : lidx_main_v54 i k = @ix2 50000 128 (i 0) k :=
  funext fun a => Fin.ext (by match a with | ⟨0, _⟩ => rfl | ⟨1, _⟩ => rfl)
/-- … and column `s` of the second weight matrix. -/
theorem ridx54 (i : S50000x128.Idx) (k : Fin 128) : ridx_main_v54 i k = @ix2 128 128 k (i 1) :=
  funext fun a => Fin.ext (by match a with | ⟨0, _⟩ => rfl | ⟨1, _⟩ => rfl)
/-- The second bias spread over the rows is read at the entry's column. -/
theorem bias56 (i : S50000x128.Idx) : idx_main_v55 (idx_main_v56 i) = @ix1 128 (i 1) :=
  funext fun a => Fin.ext (by match a with | ⟨0, _⟩ => rfl)

/-- The hidden layer before its activation, at entry `(n, k)`: row `n` of the summed messages times column `k` of
    the first weights, plus the first bias at `k`. The summed messages stay a variable. -/
theorem m_pre (x0 : (⟨S50000x128, .f32⟩ : BufTy).Contents (Elt Ideal)) (x1 : (⟨S1600000x50, .f32⟩ : BufTy).Contents (Elt Ideal)) (x2 : (⟨S1600000, .f32⟩ : BufTy).Contents (Elt Ideal))
    (x3 x4 : (⟨S1600000, .i32⟩ : BufTy).Contents (Elt Ideal)) (x5 : (⟨S128x128, .f32⟩ : BufTy).Contents (Elt Ideal)) (x6 : (⟨S50x128, .f32⟩ : BufTy).Contents (Elt Ideal)) (x7 : (⟨S128, .f32⟩ : BufTy).Contents (Elt Ideal))
    (x8 : (⟨S128x128, .f32⟩ : BufTy).Contents (Elt Ideal)) (x9 : (⟨S128, .f32⟩ : BufTy).Contents (Elt Ideal)) (x10 : (⟨S128x128, .f32⟩ : BufTy).Contents (Elt Ideal)) (x11 : (⟨S128, .f32⟩ : BufTy).Contents (Elt Ideal)) (j : S50000x128.Idx) :
    val_main_v46 (F := Ideal) x0 x1 x2 x3 x4 x5 x6 x7 x8 x9 x10 x11 j
      = rowMat (fun k => val_main_v42 (F := Ideal) x0 x1 x2 x3 x4 x5 x6 x7 x8 x9 (ix2 (j 0) k)) x10 (j 1) + x11 (ix1 (j 1)) := by
  rw [val_main_v46_apply, val_main_v43_apply, val_main_v45_apply, val_main_v44_apply]
  generalize val_main_v42 (F := Ideal) x0 x1 x2 x3 x4 x5 x6 x7 x8 x9 = A
  simp only [lidx43, ridx43, bias45, Ideal.addf_def]
  rfl

/-- The hidden layer at an entry is `swish` of the pre-activation at the same entry. -/
theorem m_act (x0 : (⟨S50000x128, .f32⟩ : BufTy).Contents (Elt Ideal)) (x1 : (⟨S1600000x50, .f32⟩ : BufTy).Contents (Elt Ideal)) (x2 : (⟨S1600000, .f32⟩ : BufTy).Contents (Elt Ideal))
    (x3 x4 : (⟨S1600000, .i32⟩ : BufTy).Contents (Elt Ideal)) (x5 : (⟨S128x128, .f32⟩ : BufTy).Contents (Elt Ideal)) (x6 : (⟨S50x128, .f32⟩ : BufTy).Contents (Elt Ideal)) (x7 : (⟨S128, .f32⟩ : BufTy).Contents (Elt Ideal))
    (x8 : (⟨S128x128, .f32⟩ : BufTy).Contents (Elt Ideal)) (x9 : (⟨S128, .f32⟩ : BufTy).Contents (Elt Ideal)) (x10 : (⟨S128x128, .f32⟩ : BufTy).Contents (Elt Ideal)) (x11 : (⟨S128, .f32⟩ : BufTy).Contents (Elt Ideal)) (j : S50000x128.Idx) :
    val_main_v53 (F := Ideal) x0 x1 x2 x3 x4 x5 x6 x7 x8 x9 x10 x11 j = swish (val_main_v46 (F := Ideal) x0 x1 x2 x3 x4 x5 x6 x7 x8 x9 x10 x11 j) := by
  rw [val_main_v53_apply, val_main_v52_apply, val_main_v51_apply, val_main_cst_9_apply, val_main_v50_apply, val_main_v49_apply,
    val_main_cst_8_apply, val_main_v48_apply, val_main_v47_apply]
  generalize val_main_v46 (F := Ideal) x0 x1 x2 x3 x4 x5 x6 x7 x8 x9 x10 x11 j = h
  simp only [Ideal.mulf_def, Ideal.hostDivf_def, Ideal.ofBits_def, Ideal.addf_def, Ideal.hostUnary_exp_def, Ideal.hostNegf_def,
    Ideal.negf_def]
  exact swish_spelt _

/-- The reference's result is the two-layer perceptron of the rows of the summed messages. -/
theorem out_eq (x0 : (⟨S50000x128, .f32⟩ : BufTy).Contents (Elt Ideal)) (x1 : (⟨S1600000x50, .f32⟩ : BufTy).Contents (Elt Ideal)) (x2 : (⟨S1600000, .f32⟩ : BufTy).Contents (Elt Ideal))
    (x3 x4 : (⟨S1600000, .i32⟩ : BufTy).Contents (Elt Ideal)) (x5 : (⟨S128x128, .f32⟩ : BufTy).Contents (Elt Ideal)) (x6 : (⟨S50x128, .f32⟩ : BufTy).Contents (Elt Ideal)) (x7 : (⟨S128, .f32⟩ : BufTy).Contents (Elt Ideal))
    (x8 : (⟨S128x128, .f32⟩ : BufTy).Contents (Elt Ideal)) (x9 : (⟨S128, .f32⟩ : BufTy).Contents (Elt Ideal)) (x10 : (⟨S128x128, .f32⟩ : BufTy).Contents (Elt Ideal)) (x11 : (⟨S128, .f32⟩ : BufTy).Contents (Elt Ideal)) (x12 : (⟨S128x128, .f32⟩ : BufTy).Contents (Elt Ideal)) (x13 : (⟨S128, .f32⟩ : BufTy).Contents (Elt Ideal)) :
    val_main_v57 (F := Ideal) x0 x1 x2 x3 x4 x5 x6 x7 x8 x9 x10 x11 x12 x13
      = mlp2 (val_main_v42 (F := Ideal) x0 x1 x2 x3 x4 x5 x6 x7 x8 x9) x10 (fun k => x11 (ix1 k)) x12 (fun k => x13 (ix1 k)) := by
  funext i
  rw [val_main_v57_apply, val_main_v54_apply, val_main_v56_apply, val_main_v55_apply]
  simp only [lidx54, ridx54, bias56, m_act, m_pre, Ideal.addf_def]
  rfl

end Cert.ReferenceIdeal.Stages

end
-- ==== Proof.Bridge.lean ====
/-
  The reference's result as the same function of the arguments as the kernel program's: its stages, read by the
  reference's stage lemmas, are the projection, the damped filter and the message perceptron of the specification, and
  its gather of source rows and its sum at the destination nodes are the host operations the kernel program applies.
-/
import proofs.«409941_j9216999817568_1_alg».proof.Proof.RefStages
import proofs.«409941_j9216999817568_1_alg».proof.Proof.HostSide

set_option maxRecDepth 16384

noncomputable section

namespace Cert.Bridge

open Cert.ReferenceIdeal Cert.ReferenceIdeal.Read Cert.ReferenceIdeal.Stages Idealize.ShloMosaic
open Idealize.ShloMosaic.ValueIdx MatProd CFConv Cert.KernelIdeal.HostSide

variable (x0 : (⟨S50000x128, .f32⟩ : BufTy).Contents (Elt Ideal)) (x1 : (⟨S1600000x50, .f32⟩ : BufTy).Contents (Elt Ideal)) (x2 : (⟨S1600000, .f32⟩ : BufTy).Contents (Elt Ideal))
  (x3 x4 : (⟨S1600000, .i32⟩ : BufTy).Contents (Elt Ideal)) (x5 : (⟨S128x128, .f32⟩ : BufTy).Contents (Elt Ideal)) (x6 : (⟨S50x128, .f32⟩ : BufTy).Contents (Elt Ideal)) (x7 : (⟨S128, .f32⟩ : BufTy).Contents (Elt Ideal))
  (x8 : (⟨S128x128, .f32⟩ : BufTy).Contents (Elt Ideal)) (x9 : (⟨S128, .f32⟩ : BufTy).Contents (Elt Ideal)) (x10 : (⟨S128x128, .f32⟩ : BufTy).Contents (Elt Ideal)) (x11 : (⟨S128, .f32⟩ : BufTy).Contents (Elt Ideal)) (x12 : (⟨S128x128, .f32⟩ : BufTy).Contents (Elt Ideal)) (x13 : (⟨S128, .f32⟩ : BufTy).Contents (Elt Ideal))

/-- The reference's edge messages. -/
theorem ref_msg :
    val_main_v39 (F := Ideal) x0 x1 x2 x3 x5 x6 x7 x8 x9
      = edgeMsg x1 (fun e => x2 (ix1 e))
          (Host.gather Cert.KernelIdeal.gather_S50000x128_S1600000x1_S1600000x128_1_0_n_n_0_1_1128 (mmP x0 x5) (wrapIdx x3))
          x6 (fun k => x7 (ix1 k)) x8 (fun k => x9 (ix1 k)) := by
  unfold val_main_v39 val_main_v38
  rw [filter_eq, proj_eq]
  rfl

/-- The reference's summed messages. -/
theorem ref_sum :
    val_main_v42 (F := Ideal) x0 x1 x2 x3 x4 x5 x6 x7 x8 x9
      = sumAtDst x4 (edgeMsg x1 (fun e => x2 (ix1 e))
          (Host.gather Cert.KernelIdeal.gather_S50000x128_S1600000x1_S1600000x128_1_0_n_n_0_1_1128 (mmP x0 x5) (wrapIdx x3))
          x6 (fun k => x7 (ix1 k)) x8 (fun k => x9 (ix1 k))) := by
  unfold val_main_v42
  rw [ref_msg]
  rfl

/-- THE REFERENCE'S RESULT: the same function of the arguments as the kernel program's. -/
theorem ref_result :
    val_main_v57 (F := Ideal) x0 x1 x2 x3 x4 x5 x6 x7 x8 x9 x10 x11 x12 x13
      = mlp2 (sumAtDst x4 (edgeMsg x1 (fun e => x2 (ix1 e))
          (Host.gather Cert.KernelIdeal.gather_S50000x128_S1600000x1_S1600000x128_1_0_n_n_0_1_1128 (mmP x0 x5) (wrapIdx x3))
          x6 (fun k => x7 (ix1 k)) x8 (fun k => x9 (ix1 k))))
          x10 (fun k => x11 (ix1 k)) x12 (fun k => x13 (ix1 k)) := by
  rw [out_eq, ref_sum]

end Cert.Bridge

end
-- ==== Proof.PreRead.lean ====
/-
  The two conjuncts of the precondition that speak of the source indices, read back: every source index names a node,
  0 ≤ src < 50000 as signed words. (The other conjuncts say that the float inputs are finite; the equality of the two
  programs does not need them.)
-/
import proofs.«409941_j9216999817568_1_alg».proof.Pre_finite_inputs
import proofs.«409941_j9216999817568_1_alg».proof.Proof.Gen.Pre_finite_inputs
import Idealize.ShloMosaic.Lib.ReduceAll
import Idealize.ShloMosaic.Lib.ValueIdx

noncomputable section

namespace Cert.PreRead

open Idealize.ShloMosaic Cert.Pre_finite_inputs

/-- A rank-zero array has one index. -/
instance : Subsingleton S_.Idx := ⟨fun a b => funext fun d => d.elim0⟩

set_option maxRecDepth 16384 in
/-- Where the precondition holds, every source index is a node: 0 ≤ src e and src e < 50000, signed. -/
theorem src_is_node {F : FTy → Type} [FloatOps F] (a0 : FVec F S50000x128 .f32) (a1 : FVec F S1600000x50 .f32) (a2 : FVec F S1600000 .f32)
    (a3 : IVec S1600000 32) (a4 : IVec S1600000 32) (a5 : FVec F S128x128 .f32) (a6 : FVec F S50x128 .f32) (a7 : FVec F S128 .f32)
    (a8 : FVec F S128x128 .f32) (a9 : FVec F S128 .f32) (a10 : FVec F S128x128 .f32) (a11 : FVec F S128 .f32) (a12 : FVec F S128x128 .f32)
    (a13 : FVec F S128 .f32) (h : fn (F := F) a0 a1 a2 a3 a4 a5 a6 a7 a8 a9 a10 a11 a12 a13 = fun _ => 1#1) (e : S1600000.Idx) :
    IntOp.cmpi .sge (a3 e) 0#32 = 1#1 ∧ IntOp.cmpi .slt (a3 e) 50000#32 = 1#1 := by
  have e0 := congrFun h ValueIdx.ix0
  unfold fn fn_part1 fn_part2 fn_part3 at e0
  dsimp only at e0
  obtain ⟨e1, hlt⟩ := IntOp.andi_eq_one.1 e0
  obtain ⟨-, hge⟩ := IntOp.andi_eq_one.1 e1
  exact ⟨Host.reduce_andi_all _ _ _ _ _ hge e, Host.reduce_andi_all _ _ _ _ _ hlt e⟩

end Cert.PreRead

end
-- ==== Proof.lean ====
/-
  The certificate of a continuous-filter convolution layer on a graph: the kernel program (three launches — the node
  projection, the edge filter with its cosine cutoff multiplied onto the gathered source rows, the message perceptron —
  with the host's gather of rows and its sum at the destination nodes between them) against the jnp reference.

  Over the extended reals a format change is the identity, a matrix product into a zero accumulator and the host's
  contraction are one sum, and the logistic function is 1 / (1 + e⁻ˣ) in both spellings; so every stage of the
  reference is the same function of the same arrays as the kernel program's, in the same order of operations, and no
  algebraic law beyond that is needed — the finiteness of the float inputs is never used. The one difference is how a
  source row is looked up: the kernel program masks an index that names no node (and reads a fill value there), the
  reference's gather clamps it. Where every source index names a node — the precondition's two conjuncts on the source
  indices, 0 ≤ src < 50000 — the mask is all ones and both are the plain gather of rows.

  The frames are the generated ones (the reference's its generated run with the result dropped); the ideal pass
  rewrote nothing, so the idealization is the program's own text read at the extended reals.
-/
import proofs.«409941_j9216999817568_1_alg».proof.Defs
import proofs.«409941_j9216999817568_1_alg».proof.Proof.Gen.Kernel
import proofs.«409941_j9216999817568_1_alg».proof.Proof.Gen.Kernel.Frame
import proofs.«409941_j9216999817568_1_alg».proof.Proof.Gen.KernelIdeal
import proofs.«409941_j9216999817568_1_alg».proof.Proof.Gen.KernelIdeal.Frame
import proofs.«409941_j9216999817568_1_alg».proof.Proof.Gen.ReferenceIdeal
import proofs.«409941_j9216999817568_1_alg».proof.Proof.Gen.ReferenceIdeal.Run
import proofs.«409941_j9216999817568_1_alg».proof.Proof.Gen.ReferenceIdeal.Read
import proofs.«409941_j9216999817568_1_alg».proof.Proof.Gen.Pre_finite_inputs
import proofs.«409941_j9216999817568_1_alg».proof.Proof.RunMain
import proofs.«409941_j9216999817568_1_alg».proof.Proof.Fold
import proofs.«409941_j9216999817568_1_alg».proof.Proof.Bridge
import proofs.«409941_j9216999817568_1_alg».proof.Proof.PreRead
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- From memories that agree on the arguments, with every source index a node, both programs end with the two-layer
    perceptron of the rows of the summed edge messages. -/
theorem algebraic : Cert.algebraic_KernelIdeal_ReferenceIdeal := by
  intro m ρ m' ρ' hpre hagree
  refine ⟨_, (θ_run Cert.KernelIdeal.defs _ _).mono (fun r h c =>
      ⟨(h c).1.trans (Cert.KernelIdeal.Fold.result_eq m ρ c
        (fun e => Cert.PreRead.src_is_node _ _ _ _ _ _ _ _ _ _ _ _ _ _ (hpre c) e)), (h c).2⟩)
    (Cert.KernelIdeal.RunMain.run (F := Ideal) m ρ), ?_⟩
  refine (θ_run Cert.ReferenceIdeal.defs _ _).mono (fun r h c => ⟨(h c).1.trans ?_, (h c).2⟩)
    (Cert.ReferenceIdeal.Value.run (F := Ideal) m' ρ')
  rw [Cert.ReferenceIdeal.Read.val_main_v57_eq, Cert.Bridge.ref_result]
  obtain ⟨h0, h1, h2, h3, h4, h5, h6, h7, h8, h9, h10, h11, h12, h13⟩ := hagree c
  rw [h0, h1, h2, h3, h4, h5, h6, h7, h8, h9, h10, h11, h12, h13]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
